-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S2x500000 : Shape := ⟨2, ![2, 500000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S256x128 .f32) (main_arg10 : FVec F S128 .f32) (main_arg11 : FVec F S128x1 .f32) (main_arg12 : FVec F S1 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128x128 .f32) (main_arg7 : FVec F S128 .f32) (main_arg8 : FVec F S128x128 .f32) (main_arg9 : FVec F S256x128 .f32) (main_arg10 : FVec F S128 .f32) (main_arg11 : FVec F S128x1 .f32) (main_arg12 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S2x1600000 32) (main_arg2 : IVec S2x500000 32) (main_arg3 : FVec F S64x128 .f32) (main_arg4 : FVec F S128 .f32) (main_arg5 : FVec F S64x128 .f32) (main_arg6 : FVec F S128x128 .f32) (main_arg7 : FVec F S128 .f32) (main_arg8 : FVec F S128x128 .f32) (main_arg9 : FVec F S256x128 .f32) (main_arg10 : FVec F S128 .f32) (main_arg11 : FVec F S128x1 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S2x500000 : Shape := ⟨2, ![2, 500000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S10000x64 : Shape := ⟨2, ![10000, 64]⟩
abbrev S10000x1 : Shape := ⟨2, ![10000, 1]⟩
abbrev S10000x128 : Shape := ⟨2, ![10000, 128]⟩
abbrev S1600000x128 : Shape := ⟨2, ![1600000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S1x1 : Shape := ⟨2, ![1, 1]⟩
abbrev S10000x256 : Shape := ⟨2, ![10000, 256]⟩

abbrev nBuf : Space → Nat
  | .hbm => 93
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x500000, .i32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S256x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S1x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S1x500000, .i32⟩
  | .hbm, ⟨68, _⟩ => ⟨S500000, .i32⟩
  | .hbm, ⟨69, _⟩ => ⟨S1x500000, .i32⟩
  | .hbm, ⟨70, _⟩ => ⟨S500000, .i32⟩
  | .hbm, ⟨71, _⟩ => ⟨S_, .i32⟩
  | .hbm, ⟨72, _⟩ => ⟨S500000, .i32⟩
  | .hbm, ⟨73, _⟩ => ⟨S500000, .i1⟩
  | .hbm, ⟨74, _⟩ => ⟨S_, .i32⟩
  | .hbm, ⟨75, _⟩ => ⟨S500000, .i32⟩
  | .hbm, ⟨76, _⟩ => ⟨S500000, .i32⟩
  | .hbm, ⟨77, _⟩ => ⟨S500000, .i32⟩
  | .hbm, ⟨78, _⟩ => ⟨S500000x1, .i32⟩
  | .hbm, ⟨79, _⟩ => ⟨S500000x128, .f32⟩
  | .hbm, ⟨80, _⟩ => ⟨S_, .i32⟩
  | .hbm, ⟨81, _⟩ => ⟨S500000, .i32⟩
  | .hbm, ⟨82, _⟩ => ⟨S500000, .i1⟩
  | .hbm, ⟨83, _⟩ => ⟨S_, .i32⟩
  | .hbm, ⟨84, _⟩ => ⟨S500000, .i32⟩
  | .hbm, ⟨85, _⟩ => ⟨S500000, .i32⟩
  | .hbm, ⟨86, _⟩ => ⟨S500000, .i32⟩
  | .hbm, ⟨87, _⟩ => ⟨S500000x1, .i32⟩
  | .hbm, ⟨88, _⟩ => ⟨S500000x128, .f32⟩
  | .hbm, ⟨89, _⟩ => ⟨S1x128, .f32⟩
  | .hbm, ⟨90, _⟩ => ⟨S1x1, .f32⟩
  | .hbm, ⟨91, _⟩ => ⟨S500000x1, .f32⟩
  | .hbm, ⟨92, _⟩ => ⟨S500000, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x1, .f32⟩
  | .local _ .vmem, ⟨5, _⟩ => ⟨S10000x1, .f32⟩
  | .local _ .vmem, ⟨6, _⟩ => ⟨S64x128, .f32⟩
  | .local _ .vmem, ⟨7, _⟩ => ⟨S1x128, .f32⟩
  | .local _ .vmem, ⟨8, _⟩ => ⟨S64x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x1, .f32⟩
  | .local _ .vmem, ⟨16, _⟩ => ⟨S10000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S256x128, .f32⟩
  | .local _ .vmem, ⟨27, _⟩ => ⟨S1x128, .f32⟩
  | .local _ .vmem, ⟨28, _⟩ => ⟨S128x1, .f32⟩
  | .local _ .vmem, ⟨29, _⟩ => ⟨S1x1, .f32⟩
  | .local _ .vmem, ⟨30, _⟩ => ⟨S10000x1, .f32⟩
  | .local _ .vmem, ⟨31, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_7 : Ref sig .tc := ⟨.hbm, 52, rfl⟩
abbrev main_v28 : Ref sig .tc := ⟨.hbm, 53, rfl⟩
abbrev main_v29 : Ref sig .tc := ⟨.hbm, 54, rfl⟩
abbrev main_c_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_10 : Ref sig .tc := ⟨.hbm, 71, rfl⟩
abbrev main_v44 : Ref sig .tc := ⟨.hbm, 72, rfl⟩
abbrev main_v45 : Ref sig .tc := ⟨.hbm, 73, rfl⟩
abbrev main_c_11 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_12 : Ref sig .tc := ⟨.hbm, 80, rfl⟩
abbrev main_v51 : Ref sig .tc := ⟨.hbm, 81, rfl⟩
abbrev main_v52 : Ref sig .tc := ⟨.hbm, 82, rfl⟩
abbrev main_c_13 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S100000x128 : S_.BroadcastsInDim S100000x128 (![] : Fin 0 → Fin S100000x128.rank)
  shapeCasts_S10000x128_S10000x128 : S10000x128.ShapeCasts S10000x128
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  shapeCasts_S1_S1x1 : S1.ShapeCasts S1x1
  concatenates_S10000x128_S10000x128_S10000x256_d1 : Shape.Concatenates [S10000x128, S10000x128] S10000x256 1
  inb_S256x128_S256x128_0_0 : ∀ a, (![0, 0] : Fin 2 → Nat) a + S256x128.size a ≤ S256x128.size a
  h_S256x128 : 0 < S256x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S500000x1_S500000 : S500000x1.ShapeCasts S500000
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x128_S10000x128_1_0_0_1_n_n_wf : DotDims.WF S10000x64 S64x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  gather_S100000x128_S500000x1_S500000x128_1_0_n_n_0_1_1128_wf : GatherDims.WF S100000x128 S500000x1 S500000x128 [1] [0] [] [0] [] 1 ![1, 128]
  dot_S10000x256_S256x128_S10000x128_1_0_0_1_n_n_wf : DotDims.WF S10000x256 S256x128 S10000x128 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S500000x128.size a
  hwx2_0 : ∀ i : grid2.Coords, EltTy.bits .f32 = 32 ∨ (Rect.block (s := S500000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S500000x128.size a
  hwx2_1 : ∀ i : grid2.Coords, EltTy.bits .f32 = 32 ∨ (Rect.block (s := S500000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x1.size a ≤ S500000x1.size a
  hwx2_6 : ∀ i : grid2.Coords, EltTy.bits .f32 = 32 ∨ (Rect.block (s := S500000x1) S10000x1.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_v25) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S10000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S2x500000 : Shape := ⟨2, ![2, 500000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S500000x256 : Shape := ⟨2, ![500000, 256]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x500000, .i32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S256x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S1x500000, .i32⟩
  | .hbm, ⟨84, _⟩ => ⟨S500000, .i32⟩
  | .hbm, ⟨85, _⟩ => ⟨S_, .i32⟩
  | .hbm, ⟨86, _⟩ => ⟨S500000, .i32⟩
  | .hbm, ⟨87, _⟩ => ⟨S500000, .i1⟩
  | .hbm, ⟨88, _⟩ => ⟨S_, .i32⟩
  | .hbm, ⟨89, _⟩ => ⟨S500000, .i32⟩
  | .hbm, ⟨90, _⟩ => ⟨S500000, .i32⟩
  | .hbm, ⟨91, _⟩ => ⟨S500000, .i32⟩
  | .hbm, ⟨92, _⟩ => ⟨S500000x1, .i32⟩
  | .hbm, ⟨93, _⟩ => ⟨S500000x128, .f32⟩
  | .hbm, ⟨94, _⟩ => ⟨S1x500000, .i32⟩
  | .hbm, ⟨95, _⟩ => ⟨S500000, .i32⟩
  | .hbm, ⟨96, _⟩ => ⟨S_, .i32⟩
  | .hbm, ⟨97, _⟩ => ⟨S500000, .i32⟩
  | .hbm, ⟨98, _⟩ => ⟨S500000, .i1⟩
  | .hbm, ⟨99, _⟩ => ⟨S_, .i32⟩
  | .hbm, ⟨100, _⟩ => ⟨S500000, .i32⟩
  | .hbm, ⟨101, _⟩ => ⟨S500000, .i32⟩
  | .hbm, ⟨102, _⟩ => ⟨S500000, .i32⟩
  | .hbm, ⟨103, _⟩ => ⟨S500000x1, .i32⟩
  | .hbm, ⟨104, _⟩ => ⟨S500000x128, .f32⟩
  | .hbm, ⟨105, _⟩ => ⟨S500000x256, .f32⟩
  | .hbm, ⟨106, _⟩ => ⟨S500000x128, .f32⟩
  | .hbm, ⟨107, _⟩ => ⟨S1x128, .f32⟩
  | .hbm, ⟨108, _⟩ => ⟨S500000x128, .f32⟩
  | .hbm, ⟨109, _⟩ => ⟨S500000x128, .f32⟩
  | .hbm, ⟨110, _⟩ => ⟨S_, .f32⟩
  | .hbm, ⟨111, _⟩ => ⟨S500000x128, .f32⟩
  | .hbm, ⟨112, _⟩ => ⟨S500000x128, .f32⟩
  | .hbm, ⟨113, _⟩ => ⟨S500000x1, .f32⟩
  | .hbm, ⟨114, _⟩ => ⟨S1x1, .f32⟩
  | .hbm, ⟨115, _⟩ => ⟨S500000x1, .f32⟩
  | .hbm, ⟨116, _⟩ => ⟨S500000x1, .f32⟩
  | .hbm, ⟨117, _⟩ => ⟨S500000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_6 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_cst : Ref sig .tc := ⟨.hbm, 58, rfl⟩
abbrev main_call1_v0 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_c_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_12 : Ref sig .tc := ⟨.hbm, 96, rfl⟩
abbrev main_v65 : Ref sig .tc := ⟨.hbm, 97, rfl⟩
abbrev main_v66 : Ref sig .tc := ⟨.hbm, 98, rfl⟩
abbrev main_c_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_call2_cst : Ref sig .tc := ⟨.hbm, 110, rfl⟩
abbrev main_call2_v0 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x128_S500000x128_S500000x256_d1 : Shape.Concatenates [S500000x128, S500000x128] S500000x256 1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.ChainKept.lean ====
/- What is not written stays: for the kernel program's @main, boundary by boundary (W0 the launch memory, W1 … W3 after the
   three host stretches before the first region, W4 after the first region, W5 after the next stretch, W6 after the second
   region, W7 after the stretch before the third), a buffer that the stretch or region between two boundaries does not
   write holds at the later boundary what it held at the earlier one; a region writes only its output window's array.
   Hence every argument array holds, at every boundary, its launch contents. -/
import proofs.«156912_j75256416960673_1_alg».proof.Proof.Gen.KernelIdeal.Frame
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

/-- A buffer no operation of the stretch writes holds after it what it held before. -/
macro "unwritten " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg)

/-! ## Through a host stretch or a region: what is not written stays -/
theorem W1_arg0_kept (c : Dev nD) : W1 m ρ c (Proc.devRef .tc main_arg0) = W0 m ρ c (Proc.devRef .tc main_arg0) := by
  unwritten hostOps0
theorem W1_arg1_kept (c : Dev nD) : W1 m ρ c (Proc.devRef .tc main_arg1) = W0 m ρ c (Proc.devRef .tc main_arg1) := by
  unwritten hostOps0
theorem W1_arg2_kept (c : Dev nD) : W1 m ρ c (Proc.devRef .tc main_arg2) = W0 m ρ c (Proc.devRef .tc main_arg2) := by
  unwritten hostOps0
theorem W1_arg3_kept (c : Dev nD) : W1 m ρ c (Proc.devRef .tc main_arg3) = W0 m ρ c (Proc.devRef .tc main_arg3) := by
  unwritten hostOps0
theorem W1_arg4_kept (c : Dev nD) : W1 m ρ c (Proc.devRef .tc main_arg4) = W0 m ρ c (Proc.devRef .tc main_arg4) := by
  unwritten hostOps0
theorem W1_arg5_kept (c : Dev nD) : W1 m ρ c (Proc.devRef .tc main_arg5) = W0 m ρ c (Proc.devRef .tc main_arg5) := by
  unwritten hostOps0
theorem W1_arg6_kept (c : Dev nD) : W1 m ρ c (Proc.devRef .tc main_arg6) = W0 m ρ c (Proc.devRef .tc main_arg6) := by
  unwritten hostOps0
theorem W1_arg7_kept (c : Dev nD) : W1 m ρ c (Proc.devRef .tc main_arg7) = W0 m ρ c (Proc.devRef .tc main_arg7) := by
  unwritten hostOps0
theorem W1_arg8_kept (c : Dev nD) : W1 m ρ c (Proc.devRef .tc main_arg8) = W0 m ρ c (Proc.devRef .tc main_arg8) := by
  unwritten hostOps0
theorem W1_arg9_kept (c : Dev nD) : W1 m ρ c (Proc.devRef .tc main_arg9) = W0 m ρ c (Proc.devRef .tc main_arg9) := by
  unwritten hostOps0
theorem W1_arg10_kept (c : Dev nD) : W1 m ρ c (Proc.devRef .tc main_arg10) = W0 m ρ c (Proc.devRef .tc main_arg10) := by
  unwritten hostOps0
theorem W1_arg11_kept (c : Dev nD) : W1 m ρ c (Proc.devRef .tc main_arg11) = W0 m ρ c (Proc.devRef .tc main_arg11) := by
  unwritten hostOps0
theorem W1_arg12_kept (c : Dev nD) : W1 m ρ c (Proc.devRef .tc main_arg12) = W0 m ρ c (Proc.devRef .tc main_arg12) := by
  unwritten hostOps0
theorem W2_arg0_kept (c : Dev nD) : W2 m ρ c (Proc.devRef .tc main_arg0) = W1 m ρ c (Proc.devRef .tc main_arg0) := by
  unwritten hostOps0_1
theorem W2_arg1_kept (c : Dev nD) : W2 m ρ c (Proc.devRef .tc main_arg1) = W1 m ρ c (Proc.devRef .tc main_arg1) := by
  unwritten hostOps0_1
theorem W2_arg2_kept (c : Dev nD) : W2 m ρ c (Proc.devRef .tc main_arg2) = W1 m ρ c (Proc.devRef .tc main_arg2) := by
  unwritten hostOps0_1
theorem W2_arg3_kept (c : Dev nD) : W2 m ρ c (Proc.devRef .tc main_arg3) = W1 m ρ c (Proc.devRef .tc main_arg3) := by
  unwritten hostOps0_1
theorem W2_arg4_kept (c : Dev nD) : W2 m ρ c (Proc.devRef .tc main_arg4) = W1 m ρ c (Proc.devRef .tc main_arg4) := by
  unwritten hostOps0_1
theorem W2_arg5_kept (c : Dev nD) : W2 m ρ c (Proc.devRef .tc main_arg5) = W1 m ρ c (Proc.devRef .tc main_arg5) := by
  unwritten hostOps0_1
theorem W2_arg6_kept (c : Dev nD) : W2 m ρ c (Proc.devRef .tc main_arg6) = W1 m ρ c (Proc.devRef .tc main_arg6) := by
  unwritten hostOps0_1
theorem W2_arg7_kept (c : Dev nD) : W2 m ρ c (Proc.devRef .tc main_arg7) = W1 m ρ c (Proc.devRef .tc main_arg7) := by
  unwritten hostOps0_1
theorem W2_arg8_kept (c : Dev nD) : W2 m ρ c (Proc.devRef .tc main_arg8) = W1 m ρ c (Proc.devRef .tc main_arg8) := by
  unwritten hostOps0_1
theorem W2_arg9_kept (c : Dev nD) : W2 m ρ c (Proc.devRef .tc main_arg9) = W1 m ρ c (Proc.devRef .tc main_arg9) := by
  unwritten hostOps0_1
theorem W2_arg10_kept (c : Dev nD) : W2 m ρ c (Proc.devRef .tc main_arg10) = W1 m ρ c (Proc.devRef .tc main_arg10) := by
  unwritten hostOps0_1
theorem W2_arg11_kept (c : Dev nD) : W2 m ρ c (Proc.devRef .tc main_arg11) = W1 m ρ c (Proc.devRef .tc main_arg11) := by
  unwritten hostOps0_1
theorem W2_arg12_kept (c : Dev nD) : W2 m ρ c (Proc.devRef .tc main_arg12) = W1 m ρ c (Proc.devRef .tc main_arg12) := by
  unwritten hostOps0_1
theorem W2_v1_kept (c : Dev nD) : W2 m ρ c (Proc.devRef .tc main_v1) = W1 m ρ c (Proc.devRef .tc main_v1) := by
  unwritten hostOps0_1
theorem W2_v3_kept (c : Dev nD) : W2 m ρ c (Proc.devRef .tc main_v3) = W1 m ρ c (Proc.devRef .tc main_v3) := by
  unwritten hostOps0_1
theorem W3_arg0_kept (c : Dev nD) : W3 m ρ c (Proc.devRef .tc main_arg0) = W2 m ρ c (Proc.devRef .tc main_arg0) := by
  unwritten hostOps0_2
theorem W3_arg1_kept (c : Dev nD) : W3 m ρ c (Proc.devRef .tc main_arg1) = W2 m ρ c (Proc.devRef .tc main_arg1) := by
  unwritten hostOps0_2
theorem W3_arg2_kept (c : Dev nD) : W3 m ρ c (Proc.devRef .tc main_arg2) = W2 m ρ c (Proc.devRef .tc main_arg2) := by
  unwritten hostOps0_2
theorem W3_arg3_kept (c : Dev nD) : W3 m ρ c (Proc.devRef .tc main_arg3) = W2 m ρ c (Proc.devRef .tc main_arg3) := by
  unwritten hostOps0_2
theorem W3_arg4_kept (c : Dev nD) : W3 m ρ c (Proc.devRef .tc main_arg4) = W2 m ρ c (Proc.devRef .tc main_arg4) := by
  unwritten hostOps0_2
theorem W3_arg5_kept (c : Dev nD) : W3 m ρ c (Proc.devRef .tc main_arg5) = W2 m ρ c (Proc.devRef .tc main_arg5) := by
  unwritten hostOps0_2
theorem W3_arg6_kept (c : Dev nD) : W3 m ρ c (Proc.devRef .tc main_arg6) = W2 m ρ c (Proc.devRef .tc main_arg6) := by
  unwritten hostOps0_2
theorem W3_arg7_kept (c : Dev nD) : W3 m ρ c (Proc.devRef .tc main_arg7) = W2 m ρ c (Proc.devRef .tc main_arg7) := by
  unwritten hostOps0_2
theorem W3_arg8_kept (c : Dev nD) : W3 m ρ c (Proc.devRef .tc main_arg8) = W2 m ρ c (Proc.devRef .tc main_arg8) := by
  unwritten hostOps0_2
theorem W3_arg9_kept (c : Dev nD) : W3 m ρ c (Proc.devRef .tc main_arg9) = W2 m ρ c (Proc.devRef .tc main_arg9) := by
  unwritten hostOps0_2
theorem W3_arg10_kept (c : Dev nD) : W3 m ρ c (Proc.devRef .tc main_arg10) = W2 m ρ c (Proc.devRef .tc main_arg10) := by
  unwritten hostOps0_2
theorem W3_arg11_kept (c : Dev nD) : W3 m ρ c (Proc.devRef .tc main_arg11) = W2 m ρ c (Proc.devRef .tc main_arg11) := by
  unwritten hostOps0_2
theorem W3_arg12_kept (c : Dev nD) : W3 m ρ c (Proc.devRef .tc main_arg12) = W2 m ρ c (Proc.devRef .tc main_arg12) := by
  unwritten hostOps0_2
theorem W3_v1_kept (c : Dev nD) : W3 m ρ c (Proc.devRef .tc main_v1) = W2 m ρ c (Proc.devRef .tc main_v1) := by
  unwritten hostOps0_2
theorem W3_v3_kept (c : Dev nD) : W3 m ρ c (Proc.devRef .tc main_v3) = W2 m ρ c (Proc.devRef .tc main_v3) := by
  unwritten hostOps0_2
theorem W4_arg0_kept (c : Dev nD) : W4 m ρ c (Proc.devRef .tc main_arg0) = W3 m ρ c (Proc.devRef .tc main_arg0) := by
  exact (W4_arr m ρ c 1).trans (((dat0 (V3 m ρ) c).arrAt_in 1 rfl _).trans (A_eq0 (V3 m ρ) c 1))
theorem W4_arg1_kept (c : Dev nD) : W4 m ρ c (Proc.devRef .tc main_arg1) = W3 m ρ c (Proc.devRef .tc main_arg1) := by
  exact W4_of_ne m ρ c main_arg1 (by decide)
theorem W4_arg2_kept (c : Dev nD) : W4 m ρ c (Proc.devRef .tc main_arg2) = W3 m ρ c (Proc.devRef .tc main_arg2) := by
  exact W4_of_ne m ρ c main_arg2 (by decide)
theorem W4_arg3_kept (c : Dev nD) : W4 m ρ c (Proc.devRef .tc main_arg3) = W3 m ρ c (Proc.devRef .tc main_arg3) := by
  exact (W4_arr m ρ c 3).trans (((dat0 (V3 m ρ) c).arrAt_in 3 rfl _).trans (A_eq0 (V3 m ρ) c 3))
theorem W4_arg4_kept (c : Dev nD) : W4 m ρ c (Proc.devRef .tc main_arg4) = W3 m ρ c (Proc.devRef .tc main_arg4) := by
  exact W4_of_ne m ρ c main_arg4 (by decide)
theorem W4_arg5_kept (c : Dev nD) : W4 m ρ c (Proc.devRef .tc main_arg5) = W3 m ρ c (Proc.devRef .tc main_arg5) := by
  exact (W4_arr m ρ c 5).trans (((dat0 (V3 m ρ) c).arrAt_in 5 rfl _).trans (A_eq0 (V3 m ρ) c 5))
theorem W4_arg6_kept (c : Dev nD) : W4 m ρ c (Proc.devRef .tc main_arg6) = W3 m ρ c (Proc.devRef .tc main_arg6) := by
  exact W4_of_ne m ρ c main_arg6 (by decide)
theorem W4_arg7_kept (c : Dev nD) : W4 m ρ c (Proc.devRef .tc main_arg7) = W3 m ρ c (Proc.devRef .tc main_arg7) := by
  exact W4_of_ne m ρ c main_arg7 (by decide)
theorem W4_arg8_kept (c : Dev nD) : W4 m ρ c (Proc.devRef .tc main_arg8) = W3 m ρ c (Proc.devRef .tc main_arg8) := by
  exact W4_of_ne m ρ c main_arg8 (by decide)
theorem W4_arg9_kept (c : Dev nD) : W4 m ρ c (Proc.devRef .tc main_arg9) = W3 m ρ c (Proc.devRef .tc main_arg9) := by
  exact W4_of_ne m ρ c main_arg9 (by decide)
theorem W4_arg10_kept (c : Dev nD) : W4 m ρ c (Proc.devRef .tc main_arg10) = W3 m ρ c (Proc.devRef .tc main_arg10) := by
  exact W4_of_ne m ρ c main_arg10 (by decide)
theorem W4_arg11_kept (c : Dev nD) : W4 m ρ c (Proc.devRef .tc main_arg11) = W3 m ρ c (Proc.devRef .tc main_arg11) := by
  exact W4_of_ne m ρ c main_arg11 (by decide)
theorem W4_arg12_kept (c : Dev nD) : W4 m ρ c (Proc.devRef .tc main_arg12) = W3 m ρ c (Proc.devRef .tc main_arg12) := by
  exact W4_of_ne m ρ c main_arg12 (by decide)
theorem W4_v1_kept (c : Dev nD) : W4 m ρ c (Proc.devRef .tc main_v1) = W3 m ρ c (Proc.devRef .tc main_v1) := by
  exact W4_of_ne m ρ c main_v1 (by decide)
theorem W4_v3_kept (c : Dev nD) : W4 m ρ c (Proc.devRef .tc main_v3) = W3 m ρ c (Proc.devRef .tc main_v3) := by
  exact W4_of_ne m ρ c main_v3 (by decide)
theorem W4_v15_kept (c : Dev nD) : W4 m ρ c (Proc.devRef .tc main_v15) = W3 m ρ c (Proc.devRef .tc main_v15) := by
  exact (W4_arr m ρ c 2).trans (((dat0 (V3 m ρ) c).arrAt_in 2 rfl _).trans (A_eq0 (V3 m ρ) c 2))
theorem W5_arg0_kept (c : Dev nD) : W5 m ρ c (Proc.devRef .tc main_arg0) = W4 m ρ c (Proc.devRef .tc main_arg0) := by
  unwritten hostOps1
theorem W5_arg1_kept (c : Dev nD) : W5 m ρ c (Proc.devRef .tc main_arg1) = W4 m ρ c (Proc.devRef .tc main_arg1) := by
  unwritten hostOps1
theorem W5_arg2_kept (c : Dev nD) : W5 m ρ c (Proc.devRef .tc main_arg2) = W4 m ρ c (Proc.devRef .tc main_arg2) := by
  unwritten hostOps1
theorem W5_arg3_kept (c : Dev nD) : W5 m ρ c (Proc.devRef .tc main_arg3) = W4 m ρ c (Proc.devRef .tc main_arg3) := by
  unwritten hostOps1
theorem W5_arg4_kept (c : Dev nD) : W5 m ρ c (Proc.devRef .tc main_arg4) = W4 m ρ c (Proc.devRef .tc main_arg4) := by
  unwritten hostOps1
theorem W5_arg5_kept (c : Dev nD) : W5 m ρ c (Proc.devRef .tc main_arg5) = W4 m ρ c (Proc.devRef .tc main_arg5) := by
  unwritten hostOps1
theorem W5_arg6_kept (c : Dev nD) : W5 m ρ c (Proc.devRef .tc main_arg6) = W4 m ρ c (Proc.devRef .tc main_arg6) := by
  unwritten hostOps1
theorem W5_arg7_kept (c : Dev nD) : W5 m ρ c (Proc.devRef .tc main_arg7) = W4 m ρ c (Proc.devRef .tc main_arg7) := by
  unwritten hostOps1
theorem W5_arg8_kept (c : Dev nD) : W5 m ρ c (Proc.devRef .tc main_arg8) = W4 m ρ c (Proc.devRef .tc main_arg8) := by
  unwritten hostOps1
theorem W5_arg9_kept (c : Dev nD) : W5 m ρ c (Proc.devRef .tc main_arg9) = W4 m ρ c (Proc.devRef .tc main_arg9) := by
  unwritten hostOps1
theorem W5_arg10_kept (c : Dev nD) : W5 m ρ c (Proc.devRef .tc main_arg10) = W4 m ρ c (Proc.devRef .tc main_arg10) := by
  unwritten hostOps1
theorem W5_arg11_kept (c : Dev nD) : W5 m ρ c (Proc.devRef .tc main_arg11) = W4 m ρ c (Proc.devRef .tc main_arg11) := by
  unwritten hostOps1
theorem W5_arg12_kept (c : Dev nD) : W5 m ρ c (Proc.devRef .tc main_arg12) = W4 m ρ c (Proc.devRef .tc main_arg12) := by
  unwritten hostOps1
theorem W5_v15_kept (c : Dev nD) : W5 m ρ c (Proc.devRef .tc main_v15) = W4 m ρ c (Proc.devRef .tc main_v15) := by
  unwritten hostOps1
theorem W5_v27_kept (c : Dev nD) : W5 m ρ c (Proc.devRef .tc main_v27) = W4 m ρ c (Proc.devRef .tc main_v27) := by
  unwritten hostOps1
theorem W6_arg0_kept (c : Dev nD) : W6 m ρ c (Proc.devRef .tc main_arg0) = W5 m ρ c (Proc.devRef .tc main_arg0) := by
  exact W6_of_ne m ρ c main_arg0 (by decide)
theorem W6_arg1_kept (c : Dev nD) : W6 m ρ c (Proc.devRef .tc main_arg1) = W5 m ρ c (Proc.devRef .tc main_arg1) := by
  exact W6_of_ne m ρ c main_arg1 (by decide)
theorem W6_arg2_kept (c : Dev nD) : W6 m ρ c (Proc.devRef .tc main_arg2) = W5 m ρ c (Proc.devRef .tc main_arg2) := by
  exact W6_of_ne m ρ c main_arg2 (by decide)
theorem W6_arg3_kept (c : Dev nD) : W6 m ρ c (Proc.devRef .tc main_arg3) = W5 m ρ c (Proc.devRef .tc main_arg3) := by
  exact W6_of_ne m ρ c main_arg3 (by decide)
theorem W6_arg4_kept (c : Dev nD) : W6 m ρ c (Proc.devRef .tc main_arg4) = W5 m ρ c (Proc.devRef .tc main_arg4) := by
  exact W6_of_ne m ρ c main_arg4 (by decide)
theorem W6_arg5_kept (c : Dev nD) : W6 m ρ c (Proc.devRef .tc main_arg5) = W5 m ρ c (Proc.devRef .tc main_arg5) := by
  exact W6_of_ne m ρ c main_arg5 (by decide)
theorem W6_arg6_kept (c : Dev nD) : W6 m ρ c (Proc.devRef .tc main_arg6) = W5 m ρ c (Proc.devRef .tc main_arg6) := by
  exact (W6_arr m ρ c 3).trans (((dat1 (V5 m ρ) c).arrAt_in 3 rfl _).trans (A_eq1 (V5 m ρ) c 3))
theorem W6_arg7_kept (c : Dev nD) : W6 m ρ c (Proc.devRef .tc main_arg7) = W5 m ρ c (Proc.devRef .tc main_arg7) := by
  exact W6_of_ne m ρ c main_arg7 (by decide)
theorem W6_arg8_kept (c : Dev nD) : W6 m ρ c (Proc.devRef .tc main_arg8) = W5 m ρ c (Proc.devRef .tc main_arg8) := by
  exact (W6_arr m ρ c 5).trans (((dat1 (V5 m ρ) c).arrAt_in 5 rfl _).trans (A_eq1 (V5 m ρ) c 5))
theorem W6_arg9_kept (c : Dev nD) : W6 m ρ c (Proc.devRef .tc main_arg9) = W5 m ρ c (Proc.devRef .tc main_arg9) := by
  exact W6_of_ne m ρ c main_arg9 (by decide)
theorem W6_arg10_kept (c : Dev nD) : W6 m ρ c (Proc.devRef .tc main_arg10) = W5 m ρ c (Proc.devRef .tc main_arg10) := by
  exact W6_of_ne m ρ c main_arg10 (by decide)
theorem W6_arg11_kept (c : Dev nD) : W6 m ρ c (Proc.devRef .tc main_arg11) = W5 m ρ c (Proc.devRef .tc main_arg11) := by
  exact W6_of_ne m ρ c main_arg11 (by decide)
theorem W6_arg12_kept (c : Dev nD) : W6 m ρ c (Proc.devRef .tc main_arg12) = W5 m ρ c (Proc.devRef .tc main_arg12) := by
  exact W6_of_ne m ρ c main_arg12 (by decide)
theorem W7_arg0_kept (c : Dev nD) : W7 m ρ c (Proc.devRef .tc main_arg0) = W6 m ρ c (Proc.devRef .tc main_arg0) := by
  unwritten hostOps2
theorem W7_arg1_kept (c : Dev nD) : W7 m ρ c (Proc.devRef .tc main_arg1) = W6 m ρ c (Proc.devRef .tc main_arg1) := by
  unwritten hostOps2
theorem W7_arg2_kept (c : Dev nD) : W7 m ρ c (Proc.devRef .tc main_arg2) = W6 m ρ c (Proc.devRef .tc main_arg2) := by
  unwritten hostOps2
theorem W7_arg3_kept (c : Dev nD) : W7 m ρ c (Proc.devRef .tc main_arg3) = W6 m ρ c (Proc.devRef .tc main_arg3) := by
  unwritten hostOps2
theorem W7_arg4_kept (c : Dev nD) : W7 m ρ c (Proc.devRef .tc main_arg4) = W6 m ρ c (Proc.devRef .tc main_arg4) := by
  unwritten hostOps2
theorem W7_arg5_kept (c : Dev nD) : W7 m ρ c (Proc.devRef .tc main_arg5) = W6 m ρ c (Proc.devRef .tc main_arg5) := by
  unwritten hostOps2
theorem W7_arg6_kept (c : Dev nD) : W7 m ρ c (Proc.devRef .tc main_arg6) = W6 m ρ c (Proc.devRef .tc main_arg6) := by
  unwritten hostOps2
theorem W7_arg7_kept (c : Dev nD) : W7 m ρ c (Proc.devRef .tc main_arg7) = W6 m ρ c (Proc.devRef .tc main_arg7) := by
  unwritten hostOps2
theorem W7_arg8_kept (c : Dev nD) : W7 m ρ c (Proc.devRef .tc main_arg8) = W6 m ρ c (Proc.devRef .tc main_arg8) := by
  unwritten hostOps2
theorem W7_arg9_kept (c : Dev nD) : W7 m ρ c (Proc.devRef .tc main_arg9) = W6 m ρ c (Proc.devRef .tc main_arg9) := by
  unwritten hostOps2
theorem W7_arg10_kept (c : Dev nD) : W7 m ρ c (Proc.devRef .tc main_arg10) = W6 m ρ c (Proc.devRef .tc main_arg10) := by
  unwritten hostOps2
theorem W7_arg11_kept (c : Dev nD) : W7 m ρ c (Proc.devRef .tc main_arg11) = W6 m ρ c (Proc.devRef .tc main_arg11) := by
  unwritten hostOps2
theorem W7_arg12_kept (c : Dev nD) : W7 m ρ c (Proc.devRef .tc main_arg12) = W6 m ρ c (Proc.devRef .tc main_arg12) := by
  unwritten hostOps2

/-! ## The arguments at every boundary -/
theorem W1_arg0 (c : Dev nD) : W1 m ρ c (Proc.devRef .tc main_arg0) = m ((c : Thread nD τ).loc main_arg0) :=
  (W1_arg0_kept m ρ c)
theorem W1_arg1 (c : Dev nD) : W1 m ρ c (Proc.devRef .tc main_arg1) = m ((c : Thread nD τ).loc main_arg1) :=
  (W1_arg1_kept m ρ c)
theorem W1_arg2 (c : Dev nD) : W1 m ρ c (Proc.devRef .tc main_arg2) = m ((c : Thread nD τ).loc main_arg2) :=
  (W1_arg2_kept m ρ c)
theorem W1_arg3 (c : Dev nD) : W1 m ρ c (Proc.devRef .tc main_arg3) = m ((c : Thread nD τ).loc main_arg3) :=
  (W1_arg3_kept m ρ c)
theorem W1_arg4 (c : Dev nD) : W1 m ρ c (Proc.devRef .tc main_arg4) = m ((c : Thread nD τ).loc main_arg4) :=
  (W1_arg4_kept m ρ c)
theorem W1_arg5 (c : Dev nD) : W1 m ρ c (Proc.devRef .tc main_arg5) = m ((c : Thread nD τ).loc main_arg5) :=
  (W1_arg5_kept m ρ c)
theorem W1_arg6 (c : Dev nD) : W1 m ρ c (Proc.devRef .tc main_arg6) = m ((c : Thread nD τ).loc main_arg6) :=
  (W1_arg6_kept m ρ c)
theorem W1_arg7 (c : Dev nD) : W1 m ρ c (Proc.devRef .tc main_arg7) = m ((c : Thread nD τ).loc main_arg7) :=
  (W1_arg7_kept m ρ c)
theorem W1_arg8 (c : Dev nD) : W1 m ρ c (Proc.devRef .tc main_arg8) = m ((c : Thread nD τ).loc main_arg8) :=
  (W1_arg8_kept m ρ c)
theorem W1_arg9 (c : Dev nD) : W1 m ρ c (Proc.devRef .tc main_arg9) = m ((c : Thread nD τ).loc main_arg9) :=
  (W1_arg9_kept m ρ c)
theorem W1_arg10 (c : Dev nD) : W1 m ρ c (Proc.devRef .tc main_arg10) = m ((c : Thread nD τ).loc main_arg10) :=
  (W1_arg10_kept m ρ c)
theorem W1_arg11 (c : Dev nD) : W1 m ρ c (Proc.devRef .tc main_arg11) = m ((c : Thread nD τ).loc main_arg11) :=
  (W1_arg11_kept m ρ c)
theorem W1_arg12 (c : Dev nD) : W1 m ρ c (Proc.devRef .tc main_arg12) = m ((c : Thread nD τ).loc main_arg12) :=
  (W1_arg12_kept m ρ c)
theorem W2_arg0 (c : Dev nD) : W2 m ρ c (Proc.devRef .tc main_arg0) = m ((c : Thread nD τ).loc main_arg0) :=
  (W2_arg0_kept m ρ c).trans ((W1_arg0_kept m ρ c))
theorem W2_arg1 (c : Dev nD) : W2 m ρ c (Proc.devRef .tc main_arg1) = m ((c : Thread nD τ).loc main_arg1) :=
  (W2_arg1_kept m ρ c).trans ((W1_arg1_kept m ρ c))
theorem W2_arg2 (c : Dev nD) : W2 m ρ c (Proc.devRef .tc main_arg2) = m ((c : Thread nD τ).loc main_arg2) :=
  (W2_arg2_kept m ρ c).trans ((W1_arg2_kept m ρ c))
theorem W2_arg3 (c : Dev nD) : W2 m ρ c (Proc.devRef .tc main_arg3) = m ((c : Thread nD τ).loc main_arg3) :=
  (W2_arg3_kept m ρ c).trans ((W1_arg3_kept m ρ c))
theorem W2_arg4 (c : Dev nD) : W2 m ρ c (Proc.devRef .tc main_arg4) = m ((c : Thread nD τ).loc main_arg4) :=
  (W2_arg4_kept m ρ c).trans ((W1_arg4_kept m ρ c))
theorem W2_arg5 (c : Dev nD) : W2 m ρ c (Proc.devRef .tc main_arg5) = m ((c : Thread nD τ).loc main_arg5) :=
  (W2_arg5_kept m ρ c).trans ((W1_arg5_kept m ρ c))
theorem W2_arg6 (c : Dev nD) : W2 m ρ c (Proc.devRef .tc main_arg6) = m ((c : Thread nD τ).loc main_arg6) :=
  (W2_arg6_kept m ρ c).trans ((W1_arg6_kept m ρ c))
theorem W2_arg7 (c : Dev nD) : W2 m ρ c (Proc.devRef .tc main_arg7) = m ((c : Thread nD τ).loc main_arg7) :=
  (W2_arg7_kept m ρ c).trans ((W1_arg7_kept m ρ c))
theorem W2_arg8 (c : Dev nD) : W2 m ρ c (Proc.devRef .tc main_arg8) = m ((c : Thread nD τ).loc main_arg8) :=
  (W2_arg8_kept m ρ c).trans ((W1_arg8_kept m ρ c))
theorem W2_arg9 (c : Dev nD) : W2 m ρ c (Proc.devRef .tc main_arg9) = m ((c : Thread nD τ).loc main_arg9) :=
  (W2_arg9_kept m ρ c).trans ((W1_arg9_kept m ρ c))
theorem W2_arg10 (c : Dev nD) : W2 m ρ c (Proc.devRef .tc main_arg10) = m ((c : Thread nD τ).loc main_arg10) :=
  (W2_arg10_kept m ρ c).trans ((W1_arg10_kept m ρ c))
theorem W2_arg11 (c : Dev nD) : W2 m ρ c (Proc.devRef .tc main_arg11) = m ((c : Thread nD τ).loc main_arg11) :=
  (W2_arg11_kept m ρ c).trans ((W1_arg11_kept m ρ c))
theorem W2_arg12 (c : Dev nD) : W2 m ρ c (Proc.devRef .tc main_arg12) = m ((c : Thread nD τ).loc main_arg12) :=
  (W2_arg12_kept m ρ c).trans ((W1_arg12_kept m ρ c))
theorem W3_arg0 (c : Dev nD) : W3 m ρ c (Proc.devRef .tc main_arg0) = m ((c : Thread nD τ).loc main_arg0) :=
  (W3_arg0_kept m ρ c).trans ((W2_arg0_kept m ρ c).trans ((W1_arg0_kept m ρ c)))
theorem W3_arg1 (c : Dev nD) : W3 m ρ c (Proc.devRef .tc main_arg1) = m ((c : Thread nD τ).loc main_arg1) :=
  (W3_arg1_kept m ρ c).trans ((W2_arg1_kept m ρ c).trans ((W1_arg1_kept m ρ c)))
theorem W3_arg2 (c : Dev nD) : W3 m ρ c (Proc.devRef .tc main_arg2) = m ((c : Thread nD τ).loc main_arg2) :=
  (W3_arg2_kept m ρ c).trans ((W2_arg2_kept m ρ c).trans ((W1_arg2_kept m ρ c)))
theorem W3_arg3 (c : Dev nD) : W3 m ρ c (Proc.devRef .tc main_arg3) = m ((c : Thread nD τ).loc main_arg3) :=
  (W3_arg3_kept m ρ c).trans ((W2_arg3_kept m ρ c).trans ((W1_arg3_kept m ρ c)))
theorem W3_arg4 (c : Dev nD) : W3 m ρ c (Proc.devRef .tc main_arg4) = m ((c : Thread nD τ).loc main_arg4) :=
  (W3_arg4_kept m ρ c).trans ((W2_arg4_kept m ρ c).trans ((W1_arg4_kept m ρ c)))
theorem W3_arg5 (c : Dev nD) : W3 m ρ c (Proc.devRef .tc main_arg5) = m ((c : Thread nD τ).loc main_arg5) :=
  (W3_arg5_kept m ρ c).trans ((W2_arg5_kept m ρ c).trans ((W1_arg5_kept m ρ c)))
theorem W3_arg6 (c : Dev nD) : W3 m ρ c (Proc.devRef .tc main_arg6) = m ((c : Thread nD τ).loc main_arg6) :=
  (W3_arg6_kept m ρ c).trans ((W2_arg6_kept m ρ c).trans ((W1_arg6_kept m ρ c)))
theorem W3_arg7 (c : Dev nD) : W3 m ρ c (Proc.devRef .tc main_arg7) = m ((c : Thread nD τ).loc main_arg7) :=
  (W3_arg7_kept m ρ c).trans ((W2_arg7_kept m ρ c).trans ((W1_arg7_kept m ρ c)))
theorem W3_arg8 (c : Dev nD) : W3 m ρ c (Proc.devRef .tc main_arg8) = m ((c : Thread nD τ).loc main_arg8) :=
  (W3_arg8_kept m ρ c).trans ((W2_arg8_kept m ρ c).trans ((W1_arg8_kept m ρ c)))
theorem W3_arg9 (c : Dev nD) : W3 m ρ c (Proc.devRef .tc main_arg9) = m ((c : Thread nD τ).loc main_arg9) :=
  (W3_arg9_kept m ρ c).trans ((W2_arg9_kept m ρ c).trans ((W1_arg9_kept m ρ c)))
theorem W3_arg10 (c : Dev nD) : W3 m ρ c (Proc.devRef .tc main_arg10) = m ((c : Thread nD τ).loc main_arg10) :=
  (W3_arg10_kept m ρ c).trans ((W2_arg10_kept m ρ c).trans ((W1_arg10_kept m ρ c)))
theorem W3_arg11 (c : Dev nD) : W3 m ρ c (Proc.devRef .tc main_arg11) = m ((c : Thread nD τ).loc main_arg11) :=
  (W3_arg11_kept m ρ c).trans ((W2_arg11_kept m ρ c).trans ((W1_arg11_kept m ρ c)))
theorem W3_arg12 (c : Dev nD) : W3 m ρ c (Proc.devRef .tc main_arg12) = m ((c : Thread nD τ).loc main_arg12) :=
  (W3_arg12_kept m ρ c).trans ((W2_arg12_kept m ρ c).trans ((W1_arg12_kept m ρ c)))
theorem W4_arg0 (c : Dev nD) : W4 m ρ c (Proc.devRef .tc main_arg0) = m ((c : Thread nD τ).loc main_arg0) :=
  (W4_arg0_kept m ρ c).trans ((W3_arg0_kept m ρ c).trans ((W2_arg0_kept m ρ c).trans ((W1_arg0_kept m ρ c))))
theorem W4_arg1 (c : Dev nD) : W4 m ρ c (Proc.devRef .tc main_arg1) = m ((c : Thread nD τ).loc main_arg1) :=
  (W4_arg1_kept m ρ c).trans ((W3_arg1_kept m ρ c).trans ((W2_arg1_kept m ρ c).trans ((W1_arg1_kept m ρ c))))
theorem W4_arg2 (c : Dev nD) : W4 m ρ c (Proc.devRef .tc main_arg2) = m ((c : Thread nD τ).loc main_arg2) :=
  (W4_arg2_kept m ρ c).trans ((W3_arg2_kept m ρ c).trans ((W2_arg2_kept m ρ c).trans ((W1_arg2_kept m ρ c))))
theorem W4_arg3 (c : Dev nD) : W4 m ρ c (Proc.devRef .tc main_arg3) = m ((c : Thread nD τ).loc main_arg3) :=
  (W4_arg3_kept m ρ c).trans ((W3_arg3_kept m ρ c).trans ((W2_arg3_kept m ρ c).trans ((W1_arg3_kept m ρ c))))
theorem W4_arg4 (c : Dev nD) : W4 m ρ c (Proc.devRef .tc main_arg4) = m ((c : Thread nD τ).loc main_arg4) :=
  (W4_arg4_kept m ρ c).trans ((W3_arg4_kept m ρ c).trans ((W2_arg4_kept m ρ c).trans ((W1_arg4_kept m ρ c))))
theorem W4_arg5 (c : Dev nD) : W4 m ρ c (Proc.devRef .tc main_arg5) = m ((c : Thread nD τ).loc main_arg5) :=
  (W4_arg5_kept m ρ c).trans ((W3_arg5_kept m ρ c).trans ((W2_arg5_kept m ρ c).trans ((W1_arg5_kept m ρ c))))
theorem W4_arg6 (c : Dev nD) : W4 m ρ c (Proc.devRef .tc main_arg6) = m ((c : Thread nD τ).loc main_arg6) :=
  (W4_arg6_kept m ρ c).trans ((W3_arg6_kept m ρ c).trans ((W2_arg6_kept m ρ c).trans ((W1_arg6_kept m ρ c))))
theorem W4_arg7 (c : Dev nD) : W4 m ρ c (Proc.devRef .tc main_arg7) = m ((c : Thread nD τ).loc main_arg7) :=
  (W4_arg7_kept m ρ c).trans ((W3_arg7_kept m ρ c).trans ((W2_arg7_kept m ρ c).trans ((W1_arg7_kept m ρ c))))
theorem W4_arg8 (c : Dev nD) : W4 m ρ c (Proc.devRef .tc main_arg8) = m ((c : Thread nD τ).loc main_arg8) :=
  (W4_arg8_kept m ρ c).trans ((W3_arg8_kept m ρ c).trans ((W2_arg8_kept m ρ c).trans ((W1_arg8_kept m ρ c))))
theorem W4_arg9 (c : Dev nD) : W4 m ρ c (Proc.devRef .tc main_arg9) = m ((c : Thread nD τ).loc main_arg9) :=
  (W4_arg9_kept m ρ c).trans ((W3_arg9_kept m ρ c).trans ((W2_arg9_kept m ρ c).trans ((W1_arg9_kept m ρ c))))
theorem W4_arg10 (c : Dev nD) : W4 m ρ c (Proc.devRef .tc main_arg10) = m ((c : Thread nD τ).loc main_arg10) :=
  (W4_arg10_kept m ρ c).trans ((W3_arg10_kept m ρ c).trans ((W2_arg10_kept m ρ c).trans ((W1_arg10_kept m ρ c))))
theorem W4_arg11 (c : Dev nD) : W4 m ρ c (Proc.devRef .tc main_arg11) = m ((c : Thread nD τ).loc main_arg11) :=
  (W4_arg11_kept m ρ c).trans ((W3_arg11_kept m ρ c).trans ((W2_arg11_kept m ρ c).trans ((W1_arg11_kept m ρ c))))
theorem W4_arg12 (c : Dev nD) : W4 m ρ c (Proc.devRef .tc main_arg12) = m ((c : Thread nD τ).loc main_arg12) :=
  (W4_arg12_kept m ρ c).trans ((W3_arg12_kept m ρ c).trans ((W2_arg12_kept m ρ c).trans ((W1_arg12_kept m ρ c))))
theorem W5_arg0 (c : Dev nD) : W5 m ρ c (Proc.devRef .tc main_arg0) = m ((c : Thread nD τ).loc main_arg0) :=
  (W5_arg0_kept m ρ c).trans ((W4_arg0_kept m ρ c).trans ((W3_arg0_kept m ρ c).trans ((W2_arg0_kept m ρ c).trans ((W1_arg0_kept m ρ c)))))
theorem W5_arg1 (c : Dev nD) : W5 m ρ c (Proc.devRef .tc main_arg1) = m ((c : Thread nD τ).loc main_arg1) :=
  (W5_arg1_kept m ρ c).trans ((W4_arg1_kept m ρ c).trans ((W3_arg1_kept m ρ c).trans ((W2_arg1_kept m ρ c).trans ((W1_arg1_kept m ρ c)))))
theorem W5_arg2 (c : Dev nD) : W5 m ρ c (Proc.devRef .tc main_arg2) = m ((c : Thread nD τ).loc main_arg2) :=
  (W5_arg2_kept m ρ c).trans ((W4_arg2_kept m ρ c).trans ((W3_arg2_kept m ρ c).trans ((W2_arg2_kept m ρ c).trans ((W1_arg2_kept m ρ c)))))
theorem W5_arg3 (c : Dev nD) : W5 m ρ c (Proc.devRef .tc main_arg3) = m ((c : Thread nD τ).loc main_arg3) :=
  (W5_arg3_kept m ρ c).trans ((W4_arg3_kept m ρ c).trans ((W3_arg3_kept m ρ c).trans ((W2_arg3_kept m ρ c).trans ((W1_arg3_kept m ρ c)))))
theorem W5_arg4 (c : Dev nD) : W5 m ρ c (Proc.devRef .tc main_arg4) = m ((c : Thread nD τ).loc main_arg4) :=
  (W5_arg4_kept m ρ c).trans ((W4_arg4_kept m ρ c).trans ((W3_arg4_kept m ρ c).trans ((W2_arg4_kept m ρ c).trans ((W1_arg4_kept m ρ c)))))
theorem W5_arg5 (c : Dev nD) : W5 m ρ c (Proc.devRef .tc main_arg5) = m ((c : Thread nD τ).loc main_arg5) :=
  (W5_arg5_kept m ρ c).trans ((W4_arg5_kept m ρ c).trans ((W3_arg5_kept m ρ c).trans ((W2_arg5_kept m ρ c).trans ((W1_arg5_kept m ρ c)))))
theorem W5_arg6 (c : Dev nD) : W5 m ρ c (Proc.devRef .tc main_arg6) = m ((c : Thread nD τ).loc main_arg6) :=
  (W5_arg6_kept m ρ c).trans ((W4_arg6_kept m ρ c).trans ((W3_arg6_kept m ρ c).trans ((W2_arg6_kept m ρ c).trans ((W1_arg6_kept m ρ c)))))
theorem W5_arg7 (c : Dev nD) : W5 m ρ c (Proc.devRef .tc main_arg7) = m ((c : Thread nD τ).loc main_arg7) :=
  (W5_arg7_kept m ρ c).trans ((W4_arg7_kept m ρ c).trans ((W3_arg7_kept m ρ c).trans ((W2_arg7_kept m ρ c).trans ((W1_arg7_kept m ρ c)))))
theorem W5_arg8 (c : Dev nD) : W5 m ρ c (Proc.devRef .tc main_arg8) = m ((c : Thread nD τ).loc main_arg8) :=
  (W5_arg8_kept m ρ c).trans ((W4_arg8_kept m ρ c).trans ((W3_arg8_kept m ρ c).trans ((W2_arg8_kept m ρ c).trans ((W1_arg8_kept m ρ c)))))
theorem W5_arg9 (c : Dev nD) : W5 m ρ c (Proc.devRef .tc main_arg9) = m ((c : Thread nD τ).loc main_arg9) :=
  (W5_arg9_kept m ρ c).trans ((W4_arg9_kept m ρ c).trans ((W3_arg9_kept m ρ c).trans ((W2_arg9_kept m ρ c).trans ((W1_arg9_kept m ρ c)))))
theorem W5_arg10 (c : Dev nD) : W5 m ρ c (Proc.devRef .tc main_arg10) = m ((c : Thread nD τ).loc main_arg10) :=
  (W5_arg10_kept m ρ c).trans ((W4_arg10_kept m ρ c).trans ((W3_arg10_kept m ρ c).trans ((W2_arg10_kept m ρ c).trans ((W1_arg10_kept m ρ c)))))
theorem W5_arg11 (c : Dev nD) : W5 m ρ c (Proc.devRef .tc main_arg11) = m ((c : Thread nD τ).loc main_arg11) :=
  (W5_arg11_kept m ρ c).trans ((W4_arg11_kept m ρ c).trans ((W3_arg11_kept m ρ c).trans ((W2_arg11_kept m ρ c).trans ((W1_arg11_kept m ρ c)))))
theorem W5_arg12 (c : Dev nD) : W5 m ρ c (Proc.devRef .tc main_arg12) = m ((c : Thread nD τ).loc main_arg12) :=
  (W5_arg12_kept m ρ c).trans ((W4_arg12_kept m ρ c).trans ((W3_arg12_kept m ρ c).trans ((W2_arg12_kept m ρ c).trans ((W1_arg12_kept m ρ c)))))
theorem W6_arg0 (c : Dev nD) : W6 m ρ c (Proc.devRef .tc main_arg0) = m ((c : Thread nD τ).loc main_arg0) :=
  (W6_arg0_kept m ρ c).trans ((W5_arg0_kept m ρ c).trans ((W4_arg0_kept m ρ c).trans ((W3_arg0_kept m ρ c).trans ((W2_arg0_kept m ρ c).trans ((W1_arg0_kept m ρ c))))))
theorem W6_arg1 (c : Dev nD) : W6 m ρ c (Proc.devRef .tc main_arg1) = m ((c : Thread nD τ).loc main_arg1) :=
  (W6_arg1_kept m ρ c).trans ((W5_arg1_kept m ρ c).trans ((W4_arg1_kept m ρ c).trans ((W3_arg1_kept m ρ c).trans ((W2_arg1_kept m ρ c).trans ((W1_arg1_kept m ρ c))))))
theorem W6_arg2 (c : Dev nD) : W6 m ρ c (Proc.devRef .tc main_arg2) = m ((c : Thread nD τ).loc main_arg2) :=
  (W6_arg2_kept m ρ c).trans ((W5_arg2_kept m ρ c).trans ((W4_arg2_kept m ρ c).trans ((W3_arg2_kept m ρ c).trans ((W2_arg2_kept m ρ c).trans ((W1_arg2_kept m ρ c))))))
theorem W6_arg3 (c : Dev nD) : W6 m ρ c (Proc.devRef .tc main_arg3) = m ((c : Thread nD τ).loc main_arg3) :=
  (W6_arg3_kept m ρ c).trans ((W5_arg3_kept m ρ c).trans ((W4_arg3_kept m ρ c).trans ((W3_arg3_kept m ρ c).trans ((W2_arg3_kept m ρ c).trans ((W1_arg3_kept m ρ c))))))
theorem W6_arg4 (c : Dev nD) : W6 m ρ c (Proc.devRef .tc main_arg4) = m ((c : Thread nD τ).loc main_arg4) :=
  (W6_arg4_kept m ρ c).trans ((W5_arg4_kept m ρ c).trans ((W4_arg4_kept m ρ c).trans ((W3_arg4_kept m ρ c).trans ((W2_arg4_kept m ρ c).trans ((W1_arg4_kept m ρ c))))))
theorem W6_arg5 (c : Dev nD) : W6 m ρ c (Proc.devRef .tc main_arg5) = m ((c : Thread nD τ).loc main_arg5) :=
  (W6_arg5_kept m ρ c).trans ((W5_arg5_kept m ρ c).trans ((W4_arg5_kept m ρ c).trans ((W3_arg5_kept m ρ c).trans ((W2_arg5_kept m ρ c).trans ((W1_arg5_kept m ρ c))))))
theorem W6_arg6 (c : Dev nD) : W6 m ρ c (Proc.devRef .tc main_arg6) = m ((c : Thread nD τ).loc main_arg6) :=
  (W6_arg6_kept m ρ c).trans ((W5_arg6_kept m ρ c).trans ((W4_arg6_kept m ρ c).trans ((W3_arg6_kept m ρ c).trans ((W2_arg6_kept m ρ c).trans ((W1_arg6_kept m ρ c))))))
theorem W6_arg7 (c : Dev nD) : W6 m ρ c (Proc.devRef .tc main_arg7) = m ((c : Thread nD τ).loc main_arg7) :=
  (W6_arg7_kept m ρ c).trans ((W5_arg7_kept m ρ c).trans ((W4_arg7_kept m ρ c).trans ((W3_arg7_kept m ρ c).trans ((W2_arg7_kept m ρ c).trans ((W1_arg7_kept m ρ c))))))
theorem W6_arg8 (c : Dev nD) : W6 m ρ c (Proc.devRef .tc main_arg8) = m ((c : Thread nD τ).loc main_arg8) :=
  (W6_arg8_kept m ρ c).trans ((W5_arg8_kept m ρ c).trans ((W4_arg8_kept m ρ c).trans ((W3_arg8_kept m ρ c).trans ((W2_arg8_kept m ρ c).trans ((W1_arg8_kept m ρ c))))))
theorem W6_arg9 (c : Dev nD) : W6 m ρ c (Proc.devRef .tc main_arg9) = m ((c : Thread nD τ).loc main_arg9) :=
  (W6_arg9_kept m ρ c).trans ((W5_arg9_kept m ρ c).trans ((W4_arg9_kept m ρ c).trans ((W3_arg9_kept m ρ c).trans ((W2_arg9_kept m ρ c).trans ((W1_arg9_kept m ρ c))))))
theorem W6_arg10 (c : Dev nD) : W6 m ρ c (Proc.devRef .tc main_arg10) = m ((c : Thread nD τ).loc main_arg10) :=
  (W6_arg10_kept m ρ c).trans ((W5_arg10_kept m ρ c).trans ((W4_arg10_kept m ρ c).trans ((W3_arg10_kept m ρ c).trans ((W2_arg10_kept m ρ c).trans ((W1_arg10_kept m ρ c))))))
theorem W6_arg11 (c : Dev nD) : W6 m ρ c (Proc.devRef .tc main_arg11) = m ((c : Thread nD τ).loc main_arg11) :=
  (W6_arg11_kept m ρ c).trans ((W5_arg11_kept m ρ c).trans ((W4_arg11_kept m ρ c).trans ((W3_arg11_kept m ρ c).trans ((W2_arg11_kept m ρ c).trans ((W1_arg11_kept m ρ c))))))
theorem W6_arg12 (c : Dev nD) : W6 m ρ c (Proc.devRef .tc main_arg12) = m ((c : Thread nD τ).loc main_arg12) :=
  (W6_arg12_kept m ρ c).trans ((W5_arg12_kept m ρ c).trans ((W4_arg12_kept m ρ c).trans ((W3_arg12_kept m ρ c).trans ((W2_arg12_kept m ρ c).trans ((W1_arg12_kept m ρ c))))))
theorem W7_arg0 (c : Dev nD) : W7 m ρ c (Proc.devRef .tc main_arg0) = m ((c : Thread nD τ).loc main_arg0) :=
  (W7_arg0_kept m ρ c).trans ((W6_arg0_kept m ρ c).trans ((W5_arg0_kept m ρ c).trans ((W4_arg0_kept m ρ c).trans ((W3_arg0_kept m ρ c).trans ((W2_arg0_kept m ρ c).trans ((W1_arg0_kept m ρ c)))))))
theorem W7_arg1 (c : Dev nD) : W7 m ρ c (Proc.devRef .tc main_arg1) = m ((c : Thread nD τ).loc main_arg1) :=
  (W7_arg1_kept m ρ c).trans ((W6_arg1_kept m ρ c).trans ((W5_arg1_kept m ρ c).trans ((W4_arg1_kept m ρ c).trans ((W3_arg1_kept m ρ c).trans ((W2_arg1_kept m ρ c).trans ((W1_arg1_kept m ρ c)))))))
theorem W7_arg2 (c : Dev nD) : W7 m ρ c (Proc.devRef .tc main_arg2) = m ((c : Thread nD τ).loc main_arg2) :=
  (W7_arg2_kept m ρ c).trans ((W6_arg2_kept m ρ c).trans ((W5_arg2_kept m ρ c).trans ((W4_arg2_kept m ρ c).trans ((W3_arg2_kept m ρ c).trans ((W2_arg2_kept m ρ c).trans ((W1_arg2_kept m ρ c)))))))
theorem W7_arg3 (c : Dev nD) : W7 m ρ c (Proc.devRef .tc main_arg3) = m ((c : Thread nD τ).loc main_arg3) :=
  (W7_arg3_kept m ρ c).trans ((W6_arg3_kept m ρ c).trans ((W5_arg3_kept m ρ c).trans ((W4_arg3_kept m ρ c).trans ((W3_arg3_kept m ρ c).trans ((W2_arg3_kept m ρ c).trans ((W1_arg3_kept m ρ c)))))))
theorem W7_arg4 (c : Dev nD) : W7 m ρ c (Proc.devRef .tc main_arg4) = m ((c : Thread nD τ).loc main_arg4) :=
  (W7_arg4_kept m ρ c).trans ((W6_arg4_kept m ρ c).trans ((W5_arg4_kept m ρ c).trans ((W4_arg4_kept m ρ c).trans ((W3_arg4_kept m ρ c).trans ((W2_arg4_kept m ρ c).trans ((W1_arg4_kept m ρ c)))))))
theorem W7_arg5 (c : Dev nD) : W7 m ρ c (Proc.devRef .tc main_arg5) = m ((c : Thread nD τ).loc main_arg5) :=
  (W7_arg5_kept m ρ c).trans ((W6_arg5_kept m ρ c).trans ((W5_arg5_kept m ρ c).trans ((W4_arg5_kept m ρ c).trans ((W3_arg5_kept m ρ c).trans ((W2_arg5_kept m ρ c).trans ((W1_arg5_kept m ρ c)))))))
theorem W7_arg6 (c : Dev nD) : W7 m ρ c (Proc.devRef .tc main_arg6) = m ((c : Thread nD τ).loc main_arg6) :=
  (W7_arg6_kept m ρ c).trans ((W6_arg6_kept m ρ c).trans ((W5_arg6_kept m ρ c).trans ((W4_arg6_kept m ρ c).trans ((W3_arg6_kept m ρ c).trans ((W2_arg6_kept m ρ c).trans ((W1_arg6_kept m ρ c)))))))
theorem W7_arg7 (c : Dev nD) : W7 m ρ c (Proc.devRef .tc main_arg7) = m ((c : Thread nD τ).loc main_arg7) :=
  (W7_arg7_kept m ρ c).trans ((W6_arg7_kept m ρ c).trans ((W5_arg7_kept m ρ c).trans ((W4_arg7_kept m ρ c).trans ((W3_arg7_kept m ρ c).trans ((W2_arg7_kept m ρ c).trans ((W1_arg7_kept m ρ c)))))))
theorem W7_arg8 (c : Dev nD) : W7 m ρ c (Proc.devRef .tc main_arg8) = m ((c : Thread nD τ).loc main_arg8) :=
  (W7_arg8_kept m ρ c).trans ((W6_arg8_kept m ρ c).trans ((W5_arg8_kept m ρ c).trans ((W4_arg8_kept m ρ c).trans ((W3_arg8_kept m ρ c).trans ((W2_arg8_kept m ρ c).trans ((W1_arg8_kept m ρ c)))))))
theorem W7_arg9 (c : Dev nD) : W7 m ρ c (Proc.devRef .tc main_arg9) = m ((c : Thread nD τ).loc main_arg9) :=
  (W7_arg9_kept m ρ c).trans ((W6_arg9_kept m ρ c).trans ((W5_arg9_kept m ρ c).trans ((W4_arg9_kept m ρ c).trans ((W3_arg9_kept m ρ c).trans ((W2_arg9_kept m ρ c).trans ((W1_arg9_kept m ρ c)))))))
theorem W7_arg10 (c : Dev nD) : W7 m ρ c (Proc.devRef .tc main_arg10) = m ((c : Thread nD τ).loc main_arg10) :=
  (W7_arg10_kept m ρ c).trans ((W6_arg10_kept m ρ c).trans ((W5_arg10_kept m ρ c).trans ((W4_arg10_kept m ρ c).trans ((W3_arg10_kept m ρ c).trans ((W2_arg10_kept m ρ c).trans ((W1_arg10_kept m ρ c)))))))
theorem W7_arg11 (c : Dev nD) : W7 m ρ c (Proc.devRef .tc main_arg11) = m ((c : Thread nD τ).loc main_arg11) :=
  (W7_arg11_kept m ρ c).trans ((W6_arg11_kept m ρ c).trans ((W5_arg11_kept m ρ c).trans ((W4_arg11_kept m ρ c).trans ((W3_arg11_kept m ρ c).trans ((W2_arg11_kept m ρ c).trans ((W1_arg11_kept m ρ c)))))))
theorem W7_arg12 (c : Dev nD) : W7 m ρ c (Proc.devRef .tc main_arg12) = m ((c : Thread nD τ).loc main_arg12) :=
  (W7_arg12_kept m ρ c).trans ((W6_arg12_kept m ρ c).trans ((W5_arg12_kept m ρ c).trans ((W4_arg12_kept m ρ c).trans ((W3_arg12_kept m ρ c).trans ((W2_arg12_kept m ρ c).trans ((W1_arg12_kept m ρ c)))))))

end Cert.KernelIdeal.Chain

end
-- ==== Proof.Chain.lean ====
/-
  The host side of the kernel program, boundary by boundary.  Between its regions the program runs the reference's own
  host operations — the slices of the edge lists, the wrap of negative indices, the gathers, the scatter-adds, the
  inverse degree — on buffers no region writes except through its one output window.  So at each region's entry every
  buffer it reads is known: an argument array as launched (nothing on the way wrote it), or the reference's own stage of
  the arguments (the same operations over the same operands), or — for the neighbour sums and endpoint gathers of a
  previous region's output — the reference's stage GIVEN that the previous output is the reference's.  The biases and
  the inverse degree arrive reshaped to one-row and one-column matrices.
-/
import proofs.«156912_j75256416960673_1_alg».proof.Proof.ChainKept
import proofs.«156912_j75256416960673_1_alg».proof.Proof.RefRead
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.ReadP

variable {F : FTy → Type} [FloatOps F]
variable (m : (ℓ : Loc nD τ sig) → Buf (Elt F) ℓ) (ρ : Dev nD → PrngReg)

/-! ## The index vectors and the inverse degree: the same host operations as the reference's -/

theorem W1_v1 (c : Dev nD) : W1 m ρ c (Proc.devRef .tc main_v1) = val_main_v1 (F := F) (m ((c : Thread nD τ).loc main_arg1)) := by
  show StableHlo.after hostOps0 (W0 m ρ c) (Proc.devRef .tc main_v1) = _
  after_results; rfl
theorem W1_v3 (c : Dev nD) : W1 m ρ c (Proc.devRef .tc main_v3) = val_main_v3 (F := F) (m ((c : Thread nD τ).loc main_arg1)) := by
  show StableHlo.after hostOps0 (W0 m ρ c) (Proc.devRef .tc main_v3) = _
  after_results; rfl
theorem W1_v9 (c : Dev nD) : W1 m ρ c (Proc.devRef .tc main_v9) = val_main_v9 (F := F) (m ((c : Thread nD τ).loc main_arg1)) := by
  show StableHlo.after hostOps0 (W0 m ρ c) (Proc.devRef .tc main_v9) = _
  after_results; rfl
theorem W1_v13 (c : Dev nD) : W1 m ρ c (Proc.devRef .tc main_v13) = val_main_v13 (F := F) (m ((c : Thread nD τ).loc main_arg1)) := by
  show StableHlo.after hostOps0 (W0 m ρ c) (Proc.devRef .tc main_v13) = _
  after_results; rfl
theorem W1_cst_4 (c : Dev nD) : W1 m ρ c (Proc.devRef .tc main_cst_4) = val_main_cst_4 (F := F) := by
  show StableHlo.after hostOps0 (W0 m ρ c) (Proc.devRef .tc main_cst_4) = _
  after_results; rfl
theorem W2_v14 (c : Dev nD) : W2 m ρ c (Proc.devRef .tc main_v14) = val_main_v14 (F := F) (m ((c : Thread nD τ).loc main_arg1)) := by
  show StableHlo.after hostOps0_1 (W1 m ρ c) (Proc.devRef .tc main_v14) = _
  have h9 := W1_v9 m ρ c
  have h13 := W1_v13 m ρ c
  have h4 := W1_cst_4 m ρ c
  generalize W1 m ρ c = W at h9 h13 h4 ⊢
  after_results
  simp only [TRef.ofBuf, TRef.toBuf, cast_eq]
  show select (W (Proc.devRef .tc main_v9)) (W (Proc.devRef .tc main_v13)) (broadcastInDim S100000 ![] bcast_S_S100000 (id (W (Proc.devRef .tc main_cst_4)))) = _
  rw [h9, h13, h4]
  rfl
theorem W2_v1 (c : Dev nD) : W2 m ρ c (Proc.devRef .tc main_v1) = val_main_v1 (F := F) (m ((c : Thread nD τ).loc main_arg1)) := (W2_v1_kept m ρ c).trans (W1_v1 m ρ c)
theorem W2_v3 (c : Dev nD) : W2 m ρ c (Proc.devRef .tc main_v3) = val_main_v3 (F := F) (m ((c : Thread nD τ).loc main_arg1)) := (W2_v3_kept m ρ c).trans (W1_v3 m ρ c)
theorem W4_v1 (c : Dev nD) : W4 m ρ c (Proc.devRef .tc main_v1) = val_main_v1 (F := F) (m ((c : Thread nD τ).loc main_arg1)) :=
  ((W4_v1_kept m ρ c).trans ((W3_v1_kept m ρ c))).trans (W2_v1 m ρ c)
theorem W4_v3 (c : Dev nD) : W4 m ρ c (Proc.devRef .tc main_v3) = val_main_v3 (F := F) (m ((c : Thread nD τ).loc main_arg1)) :=
  ((W4_v3_kept m ρ c).trans ((W3_v3_kept m ρ c))).trans (W2_v3 m ρ c)

/-! ## What the first region finds -/

set_option maxHeartbeats 4000000 in
theorem W3_v25 (c : Dev nD) : W3 m ρ c (Proc.devRef .tc main_v25) = val_main_v24 (F := F) (m ((c : Thread nD τ).loc main_arg0)) (m ((c : Thread nD τ).loc main_arg1)) := by
  show StableHlo.after hostOps0_2 (W2 m ρ c) (Proc.devRef .tc main_v25) = _
  have h0 := W2_arg0 m ρ c
  have h1 := W2_v1 m ρ c
  have h3 := W2_v3 m ρ c
  generalize W2 m ρ c = W at h0 h1 h3 ⊢
  after_results
  rw [h0, h1, h3]
  rfl
set_option maxHeartbeats 4000000 in
theorem W3_v15 (c : Dev nD) : W3 m ρ c (Proc.devRef .tc main_v15) = shapeCast S100000x1 (val_main_v14 (F := F) (m ((c : Thread nD τ).loc main_arg1))) shapeCasts_S100000_S100000x1 := by
  show StableHlo.after hostOps0_2 (W2 m ρ c) (Proc.devRef .tc main_v15) = _
  have h14 := W2_v14 m ρ c
  generalize W2 m ρ c = W at h14 ⊢
  after_results
  rw [h14]
  rfl
set_option maxHeartbeats 4000000 in
theorem W3_v26 (c : Dev nD) : W3 m ρ c (Proc.devRef .tc main_v26) = shapeCast S1x128 (m ((c : Thread nD τ).loc main_arg4)) shapeCasts_S128_S1x128 := by
  show StableHlo.after hostOps0_2 (W2 m ρ c) (Proc.devRef .tc main_v26) = _
  have h4 := W2_arg4 m ρ c
  generalize W2 m ρ c = W at h4 ⊢
  after_results
  rw [h4]
  rfl

theorem W4_v15 (c : Dev nD) : W4 m ρ c (Proc.devRef .tc main_v15) = shapeCast S100000x1 (val_main_v14 (F := F) (m ((c : Thread nD τ).loc main_arg1))) shapeCasts_S100000_S100000x1 :=
  (W4_v15_kept m ρ c).trans (W3_v15 m ρ c)

/-! ## What the second region finds, given what the first left -/

set_option maxHeartbeats 4000000 in
theorem W5_v37 (c : Dev nD) (hH : W4 m ρ c (Proc.devRef .tc main_v27) = val_main_v34 (F := F) (m ((c : Thread nD τ).loc main_arg0)) (m ((c : Thread nD τ).loc main_arg1)) (m ((c : Thread nD τ).loc main_arg3)) (m ((c : Thread nD τ).loc main_arg4)) (m ((c : Thread nD τ).loc main_arg5))) : W5 m ρ c (Proc.devRef .tc main_v37) = val_main_v44 (F := F) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W4 m ρ c) (Proc.devRef .tc main_v37) = _
  have hH := hH
  have h1 := W4_v1 m ρ c
  have h3 := W4_v3 m ρ c
  generalize W4 m ρ c = W at hH h1 h3 ⊢
  after_results
  rw [hH, h1, h3]
  rfl
set_option maxHeartbeats 4000000 in
theorem W5_v38 (c : Dev nD) : W5 m ρ c (Proc.devRef .tc main_v38) = shapeCast S1x128 (m ((c : Thread nD τ).loc main_arg7)) shapeCasts_S128_S1x128 := by
  show StableHlo.after hostOps1 (W4 m ρ c) (Proc.devRef .tc main_v38) = _
  have h7 := W4_arg7 m ρ c
  generalize W4 m ρ c = W at h7 ⊢
  after_results
  rw [h7]
  rfl
theorem W5_v27 (c : Dev nD) (hH : W4 m ρ c (Proc.devRef .tc main_v27) = val_main_v34 (F := F) (m ((c : Thread nD τ).loc main_arg0)) (m ((c : Thread nD τ).loc main_arg1)) (m ((c : Thread nD τ).loc main_arg3)) (m ((c : Thread nD τ).loc main_arg4)) (m ((c : Thread nD τ).loc main_arg5))) : W5 m ρ c (Proc.devRef .tc main_v27) = val_main_v34 (F := F) (m ((c : Thread nD τ).loc main_arg0)) (m ((c : Thread nD τ).loc main_arg1)) (m ((c : Thread nD τ).loc main_arg3)) (m ((c : Thread nD τ).loc main_arg4)) (m ((c : Thread nD τ).loc main_arg5)) :=
  (W5_v27_kept m ρ c).trans hH
theorem W5_v15 (c : Dev nD) : W5 m ρ c (Proc.devRef .tc main_v15) = shapeCast S100000x1 (val_main_v14 (F := F) (m ((c : Thread nD τ).loc main_arg1))) shapeCasts_S100000_S100000x1 :=
  (W5_v15_kept m ρ c).trans (W4_v15 m ρ c)

/-! ## What the third region finds, given what the second left -/

set_option maxHeartbeats 4000000 in
theorem W7_v50 (c : Dev nD) (hZ : W6 m ρ c (Proc.devRef .tc main_v39) = val_main_v53 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) : W7 m ρ c (Proc.devRef .tc main_v50) = val_main_v62 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W6 m ρ c) (Proc.devRef .tc main_v50) = _
  have hZ := hZ
  have h2 := W6_arg2 m ρ c
  generalize W6 m ρ c = W at hZ h2 ⊢
  after_results
  rw [hZ, h2]
  rfl
set_option maxHeartbeats 4000000 in
theorem W7_v57 (c : Dev nD) (hZ : W6 m ρ c (Proc.devRef .tc main_v39) = val_main_v53 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) : W7 m ρ c (Proc.devRef .tc main_v57) = val_main_v71 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W6 m ρ c) (Proc.devRef .tc main_v57) = _
  have hZ := hZ
  have h2 := W6_arg2 m ρ c
  generalize W6 m ρ c = W at hZ h2 ⊢
  after_results
  rw [hZ, h2]
  rfl
set_option maxHeartbeats 4000000 in
theorem W7_v58 (c : Dev nD) : W7 m ρ c (Proc.devRef .tc main_v58) = shapeCast S1x128 (m ((c : Thread nD τ).loc main_arg10)) shapeCasts_S128_S1x128 := by
  show StableHlo.after hostOps2 (W6 m ρ c) (Proc.devRef .tc main_v58) = _
  have h10 := W6_arg10 m ρ c
  generalize W6 m ρ c = W at h10 ⊢
  after_results
  rw [h10]
  rfl
set_option maxHeartbeats 4000000 in
theorem W7_v59 (c : Dev nD) : W7 m ρ c (Proc.devRef .tc main_v59) = shapeCast S1x1 (m ((c : Thread nD τ).loc main_arg12)) shapeCasts_S1_S1x1 := by
  show StableHlo.after hostOps2 (W6 m ρ c) (Proc.devRef .tc main_v59) = _
  have h12 := W6_arg12 m ρ c
  generalize W6 m ρ c = W at h12 ⊢
  after_results
  rw [h12]
  rfl

/-! ## The result, given what the third region left -/

set_option maxHeartbeats 4000000 in
theorem W9_v61 (c : Dev nD) (hO : W8 m ρ c (Proc.devRef .tc main_v60) = val_main_v81 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) : W9 m ρ c (Proc.devRef .tc main_v61) = val_main_v82 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps3 (W8 m ρ c) (Proc.devRef .tc main_v61) = _
  have hO := hO
  generalize W8 m ρ c = W at hO ⊢
  after_results
  rw [hO]
  rfl

end Cert.KernelIdeal.Chain

end
-- ==== Proof.Spec.lean ====
/-
  The mathematics both programs compute, one element at a time, over the extended reals.

  A GraphSAGE layer at node `r`, output feature `j`: the neighbours' summed features `agg r ·` scaled by the
  node's inverse degree `inv r`, sent through `wl`; plus the bias `b j`; plus the node's own features `x r ·`
  sent through `wr`.  The link decoder at label edge `e`: the two endpoint embeddings side by side (256 features),
  through `w1` and `b1`, clamped below at zero, through the one-column `w2`, plus `b2`.

  Everything here is a plain function of coordinates (`Fin` of the literal extents): neither program is imported.
-/
import Idealize.ShloMosaic.PureOps.Ideal
import Idealize.ShloMosaic.Lib.ValueIdx

noncomputable section

open scoped BigOperators

namespace Cert.Spec

/-- A SAGE layer over 64 input features: `∑ₖ (agg r k · inv r) · wl k j + b j + ∑ₖ x r k · wr k j`. -/
def sage64 (agg x : Fin 100000 → Fin 64 → EReal) (inv : Fin 100000 → EReal) (wl : Fin 64 → Fin 128 → EReal)
    (b : Fin 128 → EReal) (wr : Fin 64 → Fin 128 → EReal) (r : Fin 100000) (j : Fin 128) : EReal :=
  (∑ k : Fin 64, (agg r k * inv r) * wl k j) + b j + ∑ k : Fin 64, x r k * wr k j

/-- A SAGE layer over 128 input features. -/
def sage128 (agg x : Fin 100000 → Fin 128 → EReal) (inv : Fin 100000 → EReal) (wl : Fin 128 → Fin 128 → EReal)
    (b : Fin 128 → EReal) (wr : Fin 128 → Fin 128 → EReal) (r : Fin 100000) (j : Fin 128) : EReal :=
  (∑ k : Fin 128, (agg r k * inv r) * wl k j) + b j + ∑ k : Fin 128, x r k * wr k j

/-- Two 128-feature rows side by side: feature `q` of the 256 is `z0`'s for `q < 128` and `z1`'s feature `q - 128` after. -/
def cat (z0 z1 : Fin 128 → EReal) (q : Fin 256) : EReal :=
  if h : q.val < 128 then z0 ⟨q.val, h⟩ else z1 ⟨q.val - 128, by have := q.isLt; omega⟩

/-- The decoder's hidden unit `k` at one label edge: `max (∑_q cat q · w1 q k + b1 k) 0`. -/
def hid (z0 z1 : Fin 128 → EReal) (w1 : Fin 256 → Fin 128 → EReal) (b1 : Fin 128 → EReal) (k : Fin 128) : EReal :=
  max ((∑ q : Fin 256, cat z0 z1 q * w1 q k) + b1 k) 0

/-- The decoder's score of one label edge: `∑ₖ hid k · w2 k + b2`. -/
def dec (z0 z1 : Fin 128 → EReal) (w1 : Fin 256 → Fin 128 → EReal) (b1 : Fin 128 → EReal) (w2 : Fin 128 → EReal)
    (b2 : EReal) : EReal :=
  (∑ k : Fin 128, hid z0 z1 w1 b1 k * w2 k) + b2

end Cert.Spec

end
-- ==== Proof.K0.lean ====
/-
  The first region, tile by tile: rows 10000·t … 10000·t + 9999 of the output are computed from the same rows of the
  neighbour sums, of the node features and of the inverse-degree column, and from the whole weight matrices and bias
  row.  At row r and feature j the tile's payload is
      max (∑ₖ (agg r k · inv r) · wl k j + b j + ∑ₖ x r k · wr k j) 0,
  each matrix product into a zero accumulator being the plain sum over the contracted axis and the change of float
  format the identity over the extended reals.  A tile's block of an array starts at row 10000·t, so the payload read
  at the tile's (r, j) is the specification at the array's (10000·t + r, j); the ten tiles cover every row, hence the
  whole output array is the specification of the arrays the region found.
-/
import proofs.«156912_j75256416960673_1_alg».proof.Proof.Gen.KernelIdeal.Frame
import proofs.«156912_j75256416960673_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

namespace Region0

/-! ## The body's arithmetic at one element of a block -/

/-- A column `[a, 1]` broadcast along the rows' features to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand of the block product is read at the output's row … -/
theorem lhs_rowdot_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
/-- … and at the contracted feature; -/
theorem lhs_rowdot_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
/-- the right operand at the contracted feature … -/
theorem rhs_rowdot_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
/-- … and at the output's column. -/
theorem rhs_rowdot_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- A block product accumulated into zero, at row `p` and column `j`: `∑ₖ l p k · r k j`. -/
theorem rowdot_apply (l : FVec Ideal S10000x64 .bf16) (r : FVec Ideal S64x128 .bf16) (p : Fin 10000) (j : Fin 128) :
    matmul (F := Ideal) dot_S10000x64_S64x128_S10000x128_1_0_0_1_n_n none l r (constant (F := Ideal) S10000x128 .f32 0x00000000#32) (ix2 p j)
      = ∑ k : Fin 64, l (ix2 p k) * r (ix2 k j) := by
  simp only [matmul]
  rw [Ideal.matmul_constant_zero_apply, ← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p j) ((contrEquiv1 dot_S10000x64_S64x128_S10000x128_1_0_0_1_n_n 64 rfl rfl).symm k) = ix2 p k := funext fun a => Fin.ext (by
    match a with
    | ⟨0, _⟩ => exact lhs_rowdot_0 _ _
    | ⟨1, _⟩ => exact (lhs_rowdot_1 _ _).trans hk)
  have er : dot_S10000x64_S64x128_S10000x128_1_0_0_1_n_n.rhsIdx (ix2 p j) ((contrEquiv1 dot_S10000x64_S64x128_S10000x128_1_0_0_1_n_n 64 rfl rfl).symm k) = ix2 k j := funext fun a => Fin.ext (by
    match a with
    | ⟨0, _⟩ => exact (rhs_rowdot_0 _ _).trans hk
    | ⟨1, _⟩ => exact rhs_rowdot_1 _ _)
  rw [el, er]

/-- The body's result at row `p`, column `j` of a block, from the loaded blocks:
    `max (∑ₖ (agg p k · inv p) · wl k j + b j + ∑ₖ x p k · wr k j) 0`. -/
theorem pay_apply (agg : Vec Ideal S10000x64 .f32) (inv : Vec Ideal S10000x1 .f32) (wl : Vec Ideal S64x128 .f32)
    (x : Vec Ideal S10000x64 .f32) (wr : Vec Ideal S64x128 .f32) (b : Vec Ideal S1x128 .f32) (p : Fin 10000) (j : Fin 128) :
    k0_pay1 (F := Ideal) agg inv wl x wr b (ix2 p j)
      = max ((∑ k : Fin 64, (agg (ix2 p k) * inv (ix2 p (0 : Fin 1))) * wl (ix2 k j)) + b (ix2 (0 : Fin 1) j) + ∑ k : Fin 64, x (ix2 p k) * wr (ix2 k j)) 0 := by
  unfold k0_pay1
  simp only [shapeCast_self]
  rw [maximumf_apply, addf_apply, addf_apply, broadcast_apply, rowdot_apply, rowdot_apply, broadcastTo_1b_ab_apply]
  simp only [truncf_apply, mulf_apply, broadcastTo_a1_ab_apply]
  show max _ (Ideal.ofBits .f32 0x00000000#32) = _
  rw [Ideal.ofBits_zero_f32]

/-! ## From a block to the array: what a grid point writes back -/

theorem zero_offsets : (![0, 0] : Fin 2 → Nat) = fun _ => 0 := funext fun a => by fin_cases a <;> rfl

/-- The output array of the region, index by index: the layer's value at node `i 0`, feature `i 1`, clamped below at zero. -/
abbrev out (c : Dev nD) : S100000x128.Idx → EReal := fun i =>
  max (Spec.sage64 (fun r k => V c main_v25 (ix2 r k)) (fun r k => V c main_arg0 (ix2 r k)) (fun r => V c main_v15 (ix2 r 0))
    (fun k j => V c main_arg3 (ix2 k j)) (fun j => V c main_v26 (ix2 0 j)) (fun k j => V c main_arg5 (ix2 k j)) (i 0) (i 1)) 0

/-- The index maps over the grid: the three row-tiled inputs and the output sit at row tile `t`, the weights and the
    bias at the one block they have. -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of tile `t` of the neighbour sums is row `t · 10000 + p` of the array. -/
theorem read_agg (c : Dev nD) (t : Fin cfg0.N) (p : Fin 10000) (k : Fin 64) (r : Fin 100000) (hr : r.val = t.val * 10000 + p.val) :
    (iblk0 V c 0 t : Vec Ideal S10000x64 .f32) (ix2 p k) = V c main_v25 (ix2 r k) := by
  show V c main_v25 (((cfg0.win 0).blk t).view.emb (ix2 p k)) = V c main_v25 (ix2 r k)
  refine congrArg (V c main_v25) (funext fun a => Fin.ext ?_)
  match a with
  | ⟨0, _⟩ => show win0_0.index t (0 : Fin 2) * 10000 + 1 * p.val = r.val; rw [(tile_index t).1]; omega
  | ⟨1, _⟩ => show win0_0.index t (1 : Fin 2) * 64 + 1 * k.val = k.val; rw [(tile_index t).2.1]; omega

/-- Row `p` of tile `t` of the node features is row `t · 10000 + p` of the array. -/
theorem read_x (c : Dev nD) (t : Fin cfg0.N) (p : Fin 10000) (k : Fin 64) (r : Fin 100000) (hr : r.val = t.val * 10000 + p.val) :
    (iblk0 V c 1 t : Vec Ideal S10000x64 .f32) (ix2 p k) = V c main_arg0 (ix2 r k) := by
  show V c main_arg0 (((cfg0.win 1).blk t).view.emb (ix2 p k)) = V c main_arg0 (ix2 r k)
  refine congrArg (V c main_arg0) (funext fun a => Fin.ext ?_)
  match a with
  | ⟨0, _⟩ => show win0_1.index t (0 : Fin 2) * 10000 + 1 * p.val = r.val; rw [(tile_index t).2.2.1]; omega
  | ⟨1, _⟩ => show win0_1.index t (1 : Fin 2) * 64 + 1 * k.val = k.val; rw [(tile_index t).2.2.2.1]; omega

/-- Entry `p` of tile `t` of the inverse degrees is entry `t · 10000 + p` of the column. -/
theorem read_inv (c : Dev nD) (t : Fin cfg0.N) (p : Fin 10000) (r : Fin 100000) (hr : r.val = t.val * 10000 + p.val) :
    (iblk0 V c 2 t : Vec Ideal S10000x1 .f32) (ix2 p (0 : Fin 1)) = V c main_v15 (ix2 r (0 : Fin 1)) := by
  show V c main_v15 (((cfg0.win 2).blk t).view.emb (ix2 p (0 : Fin 1))) = V c main_v15 (ix2 r (0 : Fin 1))
  refine congrArg (V c main_v15) (funext fun a => Fin.ext ?_)
  match a with
  | ⟨0, _⟩ => show win0_2.index t (0 : Fin 2) * 10000 + 1 * p.val = r.val; rw [(tile_index t).2.2.2.2.1]; omega
  | ⟨1, _⟩ => show win0_2.index t (1 : Fin 2) * 1 + 1 * 0 = 0; rw [(tile_index t).2.2.2.2.2.1]

/-- The left weights' one block is the whole matrix. -/
theorem read_wl (c : Dev nD) (t : Fin cfg0.N) (k : Fin 64) (j : Fin 128) :
    (iblk0 V c 3 t : Vec Ideal S64x128 .f32) (ix2 k j) = V c main_arg3 (ix2 k j) := by
  show V c main_arg3 (((cfg0.win 3).blk t).view.emb (ix2 k j)) = V c main_arg3 (ix2 k j)
  refine congrArg (V c main_arg3) (funext fun a => Fin.ext ?_)
  match a with
  | ⟨0, _⟩ => show win0_3.index t (0 : Fin 2) * 64 + 1 * k.val = k.val; rw [(tile_index t).2.2.2.2.2.2.1]; omega
  | ⟨1, _⟩ => show win0_3.index t (1 : Fin 2) * 128 + 1 * j.val = j.val; rw [(tile_index t).2.2.2.2.2.2.2.1]; omega

/-- The bias's one block is the whole row. -/
theorem read_b (c : Dev nD) (t : Fin cfg0.N) (j : Fin 128) :
    (iblk0 V c 4 t : Vec Ideal S1x128 .f32) (ix2 (0 : Fin 1) j) = V c main_v26 (ix2 (0 : Fin 1) j) := by
  show V c main_v26 (((cfg0.win 4).blk t).view.emb (ix2 (0 : Fin 1) j)) = V c main_v26 (ix2 (0 : Fin 1) j)
  refine congrArg (V c main_v26) (funext fun a => Fin.ext ?_)
  match a with
  | ⟨0, _⟩ => show win0_4.index t (0 : Fin 2) * 1 + 1 * 0 = 0; rw [(tile_index t).2.2.2.2.2.2.2.2.1]
  | ⟨1, _⟩ => show win0_4.index t (1 : Fin 2) * 128 + 1 * j.val = j.val; rw [(tile_index t).2.2.2.2.2.2.2.2.2.1]; omega

/-- The right weights' one block is the whole matrix. -/
theorem read_wr (c : Dev nD) (t : Fin cfg0.N) (k : Fin 64) (j : Fin 128) :
    (iblk0 V c 5 t : Vec Ideal S64x128 .f32) (ix2 k j) = V c main_arg5 (ix2 k j) := by
  show V c main_arg5 (((cfg0.win 5).blk t).view.emb (ix2 k j)) = V c main_arg5 (ix2 k j)
  refine congrArg (V c main_arg5) (funext fun a => Fin.ext ?_)
  match a with
  | ⟨0, _⟩ => show win0_5.index t (0 : Fin 2) * 64 + 1 * k.val = k.val; rw [(tile_index t).2.2.2.2.2.2.2.2.2.2.1]; omega
  | ⟨1, _⟩ => show win0_5.index t (1 : Fin 2) * 128 + 1 * j.val = j.val; rw [(tile_index t).2.2.2.2.2.2.2.2.2.2.2.1]; omega

/-- Row `p`, column `j` of the output's tile `t` is row `t · 10000 + p`, column `j` of the array. -/
theorem out_emb (t : Fin cfg0.N) (p : Fin 10000) (j : Fin 128) (r : Fin 100000) (hr : r.val = t.val * 10000 + p.val) :
    ((cfg0.win 6).blk t).view.emb (ix2 p j : S10000x128.Idx) = (ix2 r j : S100000x128.Idx) := by
  refine funext fun a => Fin.ext ?_
  match a with
  | ⟨0, _⟩ => show win0_6.index t (0 : Fin 2) * 10000 + 1 * p.val = r.val; rw [(tile_index t).2.2.2.2.2.2.2.2.2.2.2.2.1]; omega
  | ⟨1, _⟩ => show win0_6.index t (1 : Fin 2) * 128 + 1 * j.val = j.val; rw [(tile_index t).2.2.2.2.2.2.2.2.2.2.2.2.2]; omega

/-- One element of what point `t` leaves in the output's buffer is the output function at that element's place in the array. -/
theorem point_apply (c : Dev nD) (t : Fin cfg0.N) (y : S10000x128.Idx) :
    k0_pay1 (F := Ideal) (iblk0 V c 0 t) (iblk0 V c 2 t) (iblk0 V c 3 t) (iblk0 V c 1 t) (iblk0 V c 5 t) (iblk0 V c 4 t) y
      = out V c (((cfg0.win 6).blk t).view.emb y) := by
  obtain ⟨p, j, rfl⟩ : ∃ (p : Fin 10000) (j : Fin 128), y = ix2 p j := ⟨y 0, y 1, eq_ix2 y⟩
  have ht : t.val < 10 := Nat.lt_of_lt_of_eq t.isLt N_0
  obtain ⟨r, hr⟩ : ∃ r : Fin 100000, r.val = t.val * 10000 + p.val := ⟨⟨t.val * 10000 + p.val, by have := p.isLt; omega⟩, rfl⟩
  rw [out_emb t p j r hr]
  refine (pay_apply _ _ _ _ _ _ p j).trans ?_
  show _ = max (Spec.sage64 _ _ _ _ _ _ r j) 0
  unfold Spec.sage64
  refine congrArg (max · 0) ?_
  refine congrArg₂ (· + ·) (congrArg₂ (· + ·) (Finset.sum_congr rfl fun k _ => ?_) ?_) (Finset.sum_congr rfl fun k _ => ?_)
  · rw [read_agg V c t p k r hr, read_inv V c t p r hr, read_wl V c t k j]
  · exact read_b V c t j
  · rw [read_x V c t p k r hr, read_wr V c t k j]

/-- WHAT POINT `t` WRITES BACK is tile `t` of the output function. -/
theorem flushed_eq (c : Dev nD) (t : Fin cfg0.N) :
    (dat0 (F := Ideal) V c).flushed 6 t = ((cfg0.win 6).blk t).view.read (Elt Ideal) (out V c) := by
  show (cfg0.win 6).cut (grid0.coords t) ((dat0 V c).after 6 t) = _
  rw [after0_6]
  unfold out0_6
  rw [View.canon_unit_zero zero_offsets]
  simp only [View.ld_unit_zero (S := S10000x64) zero_offsets, View.ld_unit_zero (S := S10000x1) zero_offsets,
    View.ld_unit_zero (S := S64x128) zero_offsets, View.ld_unit_zero (S := S1x128) zero_offsets]
  funext y
  exact point_apply V c t y

/-! ## The tiles cover the array -/

/-- An index of the array is in tile `t` iff each coordinate is in the tile's range on its axis. -/
theorem mem_tile (t : Fin cfg0.N) (i : S100000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v27).slice (win0_6.rect t)).set ↔ _
  rw [View.set_slice_whole, Rect.mem_set_unit]
  exact Iff.rfl

/-- Row `r` of the array is in tile `r / 10000`. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 10000 := ⟨⟨(i 0).val / 10000, by rw [show cfg0.N = 10 from N_0]; omega⟩, rfl⟩
  have e0 : win0_6.index t (0 : Fin 2) = t.val := (tile_index t).2.2.2.2.2.2.2.2.2.2.2.2.1
  have e1 : win0_6.index t (1 : Fin 2) = 0 := (tile_index t).2.2.2.2.2.2.2.2.2.2.2.2.2
  refine ⟨t, flush0_6 t, ?_⟩
  rw [mem_tile]
  intro a
  match a with
  | ⟨0, _⟩ => show win0_6.index t (0 : Fin 2) * 10000 ≤ (i 0).val ∧ (i 0).val < win0_6.index t (0 : Fin 2) * 10000 + 10000; rw [e0]; omega
  | ⟨1, _⟩ => show win0_6.index t (1 : Fin 2) * 128 ≤ (i 1).val ∧ (i 1).val < win0_6.index t (1 : Fin 2) * 128 + 128; rw [e1]; omega

end Region0

theorem arr0 (c : Dev nD) :
    (dat0 (F := Ideal) V c).arrAt 6 cfg0.N = fun i : S100000x128.Idx =>
      max (Spec.sage64 (fun r k => V c main_v25 (ix2 r k)) (fun r k => V c main_arg0 (ix2 r k)) (fun r => V c main_v15 (ix2 r 0))
        (fun k j => V c main_arg3 (ix2 k j)) (fun j => V c main_v26 (ix2 0 j)) (fun k j => V c main_arg5 (ix2 k j)) (i 0) (i 1)) 0 := by
  exact (dat0 (F := Ideal) V c).arrAt_eq_of_cover 6 (Region0.out V c) (fun t _ => Region0.flushed_eq V c t) Region0.cover

end Cert.KernelIdeal.Val

end
-- ==== Proof.K1.lean ====
/-
  The second region, tile by tile: as the first, over 128 input features and without the clamp.  At row r and feature
  j the tile's payload is  ∑ₖ (agg r k · inv r) · wl k j + b j + ∑ₖ h r k · wr k j;  a tile's block starts at row
  10000·t, the ten tiles cover every row, so the whole output array is the specification of the arrays the region found.
-/
import proofs.«156912_j75256416960673_1_alg».proof.Proof.Gen.KernelIdeal.Frame
import proofs.«156912_j75256416960673_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The matrix product of a row tile with a square weight, read at an index -/

/-- The left operand's row coordinate is the result's row. -/
theorem sage128_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the contraction index. -/
theorem sage128_lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the contraction index. -/
theorem sage128_rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate is the result's column. -/
theorem sage128_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A [10000,128] tile times a [128,128] weight into the zero tile, at row `p` and column `j`: the sum over the 128
    shared features of the tile's entry times the weight's. -/
theorem sage128_matmul (l : FVec Ideal S10000x128 .bf16) (w : FVec Ideal S128x128 .bf16) (p : Fin 10000) (j : Fin 128) :
    matmul dot_S10000x128_S128x128_S10000x128_1_0_0_1_n_n none l w (constant (F := Ideal) S10000x128 .f32 0x00000000#32) (ix2 p j)
      = ∑ k : Fin 128, l (ix2 p k) * w (ix2 k j) := by
  refine (Ideal.matmul_constant_zero_apply dot_S10000x128_S128x128_S10000x128_1_0_0_1_n_n none l w (ix2 p j)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p j) ((ValueIdx.contrEquiv1 dot_S10000x128_S128x128_S10000x128_1_0_0_1_n_n 128 rfl rfl).symm k) = ix2 p k := funext fun a => Fin.ext (by
    match a with
    | ⟨0, _⟩ => exact sage128_lhs_row _ _
    | ⟨1, _⟩ => exact (sage128_lhs_col _ _).trans hk)
  have er : dot_S10000x128_S128x128_S10000x128_1_0_0_1_n_n.rhsIdx (ix2 p j) ((ValueIdx.contrEquiv1 dot_S10000x128_S128x128_S10000x128_1_0_0_1_n_n 128 rfl rfl).symm k) = ix2 k j := funext fun a => Fin.ext (by
    match a with
    | ⟨0, _⟩ => exact (sage128_rhs_row _ _).trans hk
    | ⟨1, _⟩ => exact sage128_rhs_col _ _)
  rw [el, er]

/-! ## The two broadcasts, read at an index -/

/-- A [10000,1] column broadcast over 128 columns reads, at `(p, j)`, the column's entry of row `p`. -/
theorem sage128_bcast_col (x : (S10000x1).Idx → EReal) (h : S10000x1.Broadcasts S10000x128) (p : Fin 10000) (j : Fin 128) :
    broadcastTo S10000x128 x h (ix2 p j) = x (ix2 p 0) := by
  refine broadcastTo_apply x h (ix2 p j) (ix2 p 0) fun ax => ?_
  match ax with
  | ⟨0, _⟩ => rfl
  | ⟨1, _⟩ => rfl

/-- A [1,128] row broadcast over 10000 rows reads, at `(p, j)`, the row's entry of column `j`. -/
theorem sage128_bcast_row (x : (S1x128).Idx → EReal) (h : S1x128.Broadcasts S10000x128) (p : Fin 10000) (j : Fin 128) :
    broadcastTo S10000x128 x h (ix2 p j) = x (ix2 0 j) :=
  broadcastTo_1b_ab_apply x h p j

/-! ## The body's arithmetic at an index -/

/-- The body's result at row `p`, column `j` of the tile: the neighbour sums scaled by the inverse degree through the
    left weight, plus the bias, plus the node's own features through the right weight. -/
theorem sage128_pay (agg : Vec Ideal S10000x128 .f32) (inv : Vec Ideal S10000x1 .f32) (wl : Vec Ideal S128x128 .f32)
    (x : Vec Ideal S10000x128 .f32) (wr : Vec Ideal S128x128 .f32) (b : Vec Ideal S1x128 .f32) (p : Fin 10000) (j : Fin 128) :
    k1_pay1 (F := Ideal) agg inv wl x wr b (ix2 p j)
      = (∑ k : Fin 128, (agg (ix2 p k) * inv (ix2 p 0)) * wl (ix2 k j)) + b (ix2 0 j) + ∑ k : Fin 128, x (ix2 p k) * wr (ix2 k j) := by
  unfold k1_pay1
  simp only [shapeCast_self]
  rw [addf_apply, addf_apply]
  refine congrArg₂ (· + ·) (congrArg₂ (· + ·) ?_ ?_) ?_
  · refine (sage128_matmul _ _ p j).trans (Finset.sum_congr rfl fun k _ => ?_)
    show agg (ix2 p k) * broadcastTo S10000x128 inv _ (ix2 p k) * wl (ix2 k j) = _
    rw [sage128_bcast_col]
  · exact sage128_bcast_row _ _ p j
  · exact sage128_matmul _ _ p j

/-! ## From the row tiles to the array -/

theorem sage128_hz : (![0, 0] : Fin 2 → Nat) = fun _ => 0 := funext fun a => by fin_cases a <;> rfl

/-- The layer's result, index by index, as one function of the six arrays the region reads. -/
abbrev sage128_G (c : Dev nD) : S100000x128.Idx → EReal := fun i =>
  Spec.sage128 (fun r k => V c main_v37 (ix2 r k)) (fun r k => V c main_v27 (ix2 r k)) (fun r => V c main_v15 (ix2 r 0))
    (fun k j => V c main_arg6 (ix2 k j)) (fun j => V c main_v38 (ix2 0 j)) (fun k j => V c main_arg8 (ix2 k j)) (i 0) (i 1)

/-- The printed index maps over the grid: the three row-tiled inputs move with the output's row tile, the weights and the
    bias stay at their one block, and the output's row tile at point `t` is tile `t`. -/
theorem sage128_idx : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ### Each input tile read where the output's tile says -/

/-- The neighbour sums' tile at point `t`: row `p` of the tile is row `R` of the array, the columns are the array's. -/
theorem sage128_read_agg (c : Dev nD) (t : Fin cfg1.N) (p : Fin 10000) (k : Fin 128) (R : Fin 100000)
    (hR : R.val = win1_6.index t (0 : Fin 2) * 10000 + 1 * p.val) :
    (iblk1 (F := Ideal) V c 0 t : S10000x128.Idx → EReal) (ix2 p k) = V c main_v37 (ix2 R k) := by
  obtain ⟨e0, e1, -⟩ := sage128_idx t
  unfold iblk1
  show V c main_v37 (((cfg1.win 0).blk t).view.emb (ix2 p k)) = V c main_v37 (ix2 R k)
  refine congrArg (V c main_v37) (funext fun a => Fin.ext ?_)
  match a with
  | ⟨0, _⟩ => show win1_0.index t (0 : Fin 2) * 10000 + 1 * p.val = R.val; rw [e0, hR]
  | ⟨1, _⟩ => show win1_0.index t (1 : Fin 2) * 128 + 1 * k.val = k.val; rw [e1]; omega

/-- The node features' tile at point `t`, likewise. -/
theorem sage128_read_x (c : Dev nD) (t : Fin cfg1.N) (p : Fin 10000) (k : Fin 128) (R : Fin 100000)
    (hR : R.val = win1_6.index t (0 : Fin 2) * 10000 + 1 * p.val) :
    (iblk1 (F := Ideal) V c 1 t : S10000x128.Idx → EReal) (ix2 p k) = V c main_v27 (ix2 R k) := by
  obtain ⟨-, -, e0, e1, -⟩ := sage128_idx t
  unfold iblk1
  show V c main_v27 (((cfg1.win 1).blk t).view.emb (ix2 p k)) = V c main_v27 (ix2 R k)
  refine congrArg (V c main_v27) (funext fun a => Fin.ext ?_)
  match a with
  | ⟨0, _⟩ => show win1_1.index t (0 : Fin 2) * 10000 + 1 * p.val = R.val; rw [e0, hR]
  | ⟨1, _⟩ => show win1_1.index t (1 : Fin 2) * 128 + 1 * k.val = k.val; rw [e1]; omega

/-- The inverse degrees' tile at point `t`: a column, row `p` of the tile is row `R` of the array. -/
theorem sage128_read_inv (c : Dev nD) (t : Fin cfg1.N) (p : Fin 10000) (R : Fin 100000)
    (hR : R.val = win1_6.index t (0 : Fin 2) * 10000 + 1 * p.val) :
    (iblk1 (F := Ideal) V c 2 t : S10000x1.Idx → EReal) (ix2 p 0) = V c main_v15 (ix2 R 0) := by
  obtain ⟨-, -, -, -, e0, e1, -⟩ := sage128_idx t
  unfold iblk1
  show V c main_v15 (((cfg1.win 2).blk t).view.emb (ix2 p 0)) = V c main_v15 (ix2 R 0)
  refine congrArg (V c main_v15) (funext fun a => Fin.ext ?_)
  match a with
  | ⟨0, _⟩ => show win1_2.index t (0 : Fin 2) * 10000 + 1 * p.val = R.val; rw [e0, hR]
  | ⟨1, _⟩ => show win1_2.index t (1 : Fin 2) * 1 + 1 * 0 = 0; rw [e1]

/-- The left weight's one block is the whole weight. -/
theorem sage128_read_wl (c : Dev nD) (t : Fin cfg1.N) (k j : Fin 128) :
    (iblk1 (F := Ideal) V c 3 t : S128x128.Idx → EReal) (ix2 k j) = V c main_arg6 (ix2 k j) := by
  obtain ⟨-, -, -, -, -, -, e0, e1, -⟩ := sage128_idx t
  unfold iblk1
  show V c main_arg6 (((cfg1.win 3).blk t).view.emb (ix2 k j)) = V c main_arg6 (ix2 k j)
  refine congrArg (V c main_arg6) (funext fun a => Fin.ext ?_)
  match a with
  | ⟨0, _⟩ => show win1_3.index t (0 : Fin 2) * 128 + 1 * k.val = k.val; rw [e0]; omega
  | ⟨1, _⟩ => show win1_3.index t (1 : Fin 2) * 128 + 1 * j.val = j.val; rw [e1]; omega

/-- The bias row's one block is the whole row. -/
theorem sage128_read_b (c : Dev nD) (t : Fin cfg1.N) (j : Fin 128) :
    (iblk1 (F := Ideal) V c 4 t : S1x128.Idx → EReal) (ix2 0 j) = V c main_v38 (ix2 0 j) := by
  obtain ⟨-, -, -, -, -, -, -, -, e0, e1, -⟩ := sage128_idx t
  unfold iblk1
  show V c main_v38 (((cfg1.win 4).blk t).view.emb (ix2 0 j)) = V c main_v38 (ix2 0 j)
  refine congrArg (V c main_v38) (funext fun a => Fin.ext ?_)
  match a with
  | ⟨0, _⟩ => show win1_4.index t (0 : Fin 2) * 1 + 1 * 0 = 0; rw [e0]
  | ⟨1, _⟩ => show win1_4.index t (1 : Fin 2) * 128 + 1 * j.val = j.val; rw [e1]; omega

/-- The right weight's one block is the whole weight. -/
theorem sage128_read_wr (c : Dev nD) (t : Fin cfg1.N) (k j : Fin 128) :
    (iblk1 (F := Ideal) V c 5 t : S128x128.Idx → EReal) (ix2 k j) = V c main_arg8 (ix2 k j) := by
  obtain ⟨-, -, -, -, -, -, -, -, -, -, e0, e1, -⟩ := sage128_idx t
  unfold iblk1
  show V c main_arg8 (((cfg1.win 5).blk t).view.emb (ix2 k j)) = V c main_arg8 (ix2 k j)
  refine congrArg (V c main_arg8) (funext fun a => Fin.ext ?_)
  match a with
  | ⟨0, _⟩ => show win1_5.index t (0 : Fin 2) * 128 + 1 * k.val = k.val; rw [e0]; omega
  | ⟨1, _⟩ => show win1_5.index t (1 : Fin 2) * 128 + 1 * j.val = j.val; rw [e1]; omega

/-! ### What a point writes back -/

/-- At point `t`, the body's result at an index of the tile is the layer's result at that index's place in the array. -/
theorem sage128_point (c : Dev nD) (t : Fin cfg1.N) (y : S10000x128.Idx) :
    k1_pay1 (F := Ideal) (iblk1 V c 0 t) (iblk1 V c 2 t) (iblk1 V c 3 t) (iblk1 V c 1 t) (iblk1 V c 5 t) (iblk1 V c 4 t) y
      = sage128_G V c (((cfg1.win 6).blk t).view.emb y) := by
  obtain ⟨p, j, rfl⟩ : ∃ (p : Fin 10000) (j : Fin 128), y = ix2 p j := ⟨y 0, y 1, eq_ix2 y⟩
  refine (sage128_pay _ _ _ _ _ _ p j).trans ?_
  have e61 : win1_6.index t (1 : Fin 2) = 0 := (sage128_idx t).2.2.2.2.2.2.2.2.2.2.2.2.2
  obtain ⟨R, hR, hi⟩ : ∃ R : Fin 100000, R.val = win1_6.index t (0 : Fin 2) * 10000 + 1 * p.val
      ∧ ((cfg1.win 6).blk t).view.emb (ix2 p j) = ix2 R j :=
    ⟨((cfg1.win 6).blk t).view.emb (ix2 p j) 0, rfl, funext fun a => Fin.ext (by
      match a with
      | ⟨0, _⟩ => rfl
      | ⟨1, _⟩ => show win1_6.index t (1 : Fin 2) * 128 + 1 * j.val = j.val; rw [e61]; omega)⟩
  rw [hi]
  show _ = Spec.sage128 _ _ _ _ _ _ R j
  unfold Spec.sage128
  refine congrArg₂ (· + ·) (congrArg₂ (· + ·) (Finset.sum_congr rfl fun k _ => ?_) ?_) (Finset.sum_congr rfl fun k _ => ?_)
  · exact congrArg₂ (· * ·) (congrArg₂ (· * ·) (sage128_read_agg V c t p k R hR) (sage128_read_inv V c t p R hR)) (sage128_read_wl V c t k j)
  · exact sage128_read_b V c t j
  · exact congrArg₂ (· * ·) (sage128_read_x V c t p k R hR) (sage128_read_wr V c t k j)

/-- WHAT POINT `t` WRITES BACK is tile `t` of the layer's result. -/
theorem sage128_flushed (c : Dev nD) (t : Fin cfg1.N) :
    (dat1 (F := Ideal) V c).flushed 6 t = ((cfg1.win 6).blk t).view.read (Elt Ideal) (sage128_G V c) := by
  show (cfg1.win 6).cut (grid1.coords t) ((dat1 V c).after 6 t) = _
  rw [after1_6]
  unfold out1_6
  rw [View.canon_unit_zero sage128_hz]
  simp only [View.ld_unit_zero (S := S10000x128) sage128_hz, View.ld_unit_zero (S := S10000x1) sage128_hz, View.ld_unit_zero (S := S128x128) sage128_hz, View.ld_unit_zero (S := S1x128) sage128_hz]
  funext y
  exact sage128_point V c t y

/-! ### The tiles cover the array -/

/-- An index of the array is in point `t`'s tile iff each coordinate is in the tile's range on its axis. -/
theorem sage128_mem_blk (t : Fin cfg1.N) (i : S100000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v39).slice (win1_6.rect t)).set ↔ _
  rw [View.set_slice_whole, Rect.mem_set_unit]
  exact Iff.rfl

/-- Row `r` of the array is in the tile of point `r / 10000`. -/
theorem sage128_cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, by show (i 0).val / 10000 < grid1.N; rw [N_1]; omega⟩, rfl⟩
  have e60 : win1_6.index t (0 : Fin 2) = t.val := (sage128_idx t).2.2.2.2.2.2.2.2.2.2.2.2.1
  have e61 : win1_6.index t (1 : Fin 2) = 0 := (sage128_idx t).2.2.2.2.2.2.2.2.2.2.2.2.2
  refine ⟨t, flush1_6 t, ?_⟩
  rw [sage128_mem_blk]
  intro a
  match a with
  | ⟨0, _⟩ =>
    show win1_6.index t (0 : Fin 2) * 10000 ≤ (i 0).val ∧ (i 0).val < win1_6.index t (0 : Fin 2) * 10000 + 10000
    rw [e60, ht]; omega
  | ⟨1, _⟩ =>
    show win1_6.index t (1 : Fin 2) * 128 ≤ (i 1).val ∧ (i 1).val < win1_6.index t (1 : Fin 2) * 128 + 128
    rw [e61]; omega

/-! ## The region's output array -/

theorem arr1 (c : Dev nD) :
    (dat1 (F := Ideal) V c).arrAt 6 cfg1.N = fun i : S100000x128.Idx =>
      Spec.sage128 (fun r k => V c main_v37 (ix2 r k)) (fun r k => V c main_v27 (ix2 r k)) (fun r => V c main_v15 (ix2 r 0))
        (fun k j => V c main_arg6 (ix2 k j)) (fun j => V c main_v38 (ix2 0 j)) (fun k j => V c main_arg8 (ix2 k j)) (i 0) (i 1) := by
  exact (dat1 (F := Ideal) V c).arrAt_eq_of_cover 6 (sage128_G V c) (fun t _ => sage128_flushed V c t) sage128_cover

end Cert.KernelIdeal.Val

end
-- ==== Proof.K2.lean ====
/-
  The third region, tile by tile: 10000 label edges at a time.  At edge e the tile's payload is
      ∑ₖ max (∑_q cat(z0 e, z1 e) q · w1 q k + b1 k) 0 · w2 k + b2,
  the two endpoint rows laid side by side (feature q < 128 from the first, q − 128 from the second), each matrix product
  the plain sum over the contracted axis.  A tile's block starts at edge 10000·t and the fifty tiles cover all 500000
  edges, so the whole score column is the specification of the arrays the region found.
-/
import proofs.«156912_j75256416960673_1_alg».proof.Proof.Gen.KernelIdeal.Frame
import proofs.«156912_j75256416960673_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx

/-! ## The two products' operand indices, axis by axis -/

theorem lhs_hid_0 (i : S10000x128.Idx) (q : dot_S10000x256_S256x128_S10000x128_1_0_0_1_n_n.contr.Idx) :
    (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
theorem lhs_hid_1 (i : S10000x128.Idx) (q : dot_S10000x256_S256x128_S10000x128_1_0_0_1_n_n.contr.Idx) :
    (dot_S10000x256_S256x128_S10000x128_1_0_0_1_n_n.lhsIdx i q 1).val = (q ⟨0, by decide⟩).val :=
  dot_S10000x256_S256x128_S10000x128_1_0_0_1_n_n.lhsIdx_val_of_single rfl i q
theorem rhs_hid_0 (i : S10000x128.Idx) (q : dot_S10000x256_S256x128_S10000x128_1_0_0_1_n_n.contr.Idx) :
    (dot_S10000x256_S256x128_S10000x128_1_0_0_1_n_n.rhsIdx i q 0).val = (q ⟨0, by decide⟩).val :=
  dot_S10000x256_S256x128_S10000x128_1_0_0_1_n_n.rhsIdx_val_of_single rfl i q
theorem rhs_hid_1 (i : S10000x128.Idx) (q : dot_S10000x256_S256x128_S10000x128_1_0_0_1_n_n.contr.Idx) :
    (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl

theorem lhs_out_0 (i : S10000x1.Idx) (q : dot_S10000x128_S128x1_S10000x1_1_0_0_1_n_n.contr.Idx) :
    (dot_S10000x128_S128x1_S10000x1_1_0_0_1_n_n.lhsIdx i q 0).val = (i 0).val := by
  unfold DotDims.lhsIdx
  rw [dif_neg (show ¬(0 : Fin S10000x128.rank) ∈ dot_S10000x128_S128x1_S10000x1_1_0_0_1_n_n.lhsBatch by decide), dif_pos (show (0 : Fin S10000x128.rank) ∈ dot_S10000x128_S128x1_S10000x1_1_0_0_1_n_n.lhsNonContracting by decide)]
  rfl
theorem lhs_out_1 (i : S10000x1.Idx) (q : dot_S10000x128_S128x1_S10000x1_1_0_0_1_n_n.contr.Idx) :
    (dot_S10000x128_S128x1_S10000x1_1_0_0_1_n_n.lhsIdx i q 1).val = (q ⟨0, by decide⟩).val :=
  dot_S10000x128_S128x1_S10000x1_1_0_0_1_n_n.lhsIdx_val_of_single rfl i q
theorem rhs_out_0 (i : S10000x1.Idx) (q : dot_S10000x128_S128x1_S10000x1_1_0_0_1_n_n.contr.Idx) :
    (dot_S10000x128_S128x1_S10000x1_1_0_0_1_n_n.rhsIdx i q 0).val = (q ⟨0, by decide⟩).val :=
  dot_S10000x128_S128x1_S10000x1_1_0_0_1_n_n.rhsIdx_val_of_single rfl i q
theorem rhs_out_1 (i : S10000x1.Idx) (q : dot_S10000x128_S128x1_S10000x1_1_0_0_1_n_n.contr.Idx) :
    (dot_S10000x128_S128x1_S10000x1_1_0_0_1_n_n.rhsIdx i q 1).val = (i 1).val := by
  unfold DotDims.rhsIdx
  rw [dif_neg (show ¬(1 : Fin S128x1.rank) ∈ dot_S10000x128_S128x1_S10000x1_1_0_0_1_n_n.rhsBatch by decide), dif_pos (show (1 : Fin S128x1.rank) ∈ dot_S10000x128_S128x1_S10000x1_1_0_0_1_n_n.rhsNonContracting by decide)]
  rfl

/-! ## The two products read at an index -/

/-- The first product into the zero accumulator, at row `r` and hidden unit `k`: the sum over the 256 features. -/
theorem hid_matmul_apply (a : FVec Ideal S10000x256 .bf16) (w : FVec Ideal S256x128 .bf16) (r : Fin 10000) (k : Fin 128) :
    matmul (F := Ideal) dot_S10000x256_S256x128_S10000x128_1_0_0_1_n_n none a w (constant (F := Ideal) S10000x128 .f32 0x00000000#32) (ix2 r k)
      = ∑ q : Fin 256, a (ix2 r q) * w (ix2 q k) := by
  simp only [matmul]
  rw [Ideal.matmul_constant_zero_apply, ← Equiv.sum_comp (ValueIdx.contrEquiv1 dot_S10000x256_S256x128_S10000x128_1_0_0_1_n_n 256 rfl rfl).symm]
  refine Finset.sum_congr rfl fun q _ => ?_
  have hq := ValueIdx.contrEquiv1_symm_val dot_S10000x256_S256x128_S10000x128_1_0_0_1_n_n 256 rfl rfl q
  have el : dot_S10000x256_S256x128_S10000x128_1_0_0_1_n_n.lhsIdx (ix2 r k) ((ValueIdx.contrEquiv1 dot_S10000x256_S256x128_S10000x128_1_0_0_1_n_n 256 rfl rfl).symm q) = ix2 r q := funext fun a => Fin.ext (by
    match a with
    | ⟨0, _⟩ => exact lhs_hid_0 _ _
    | ⟨1, _⟩ => exact (lhs_hid_1 _ _).trans hq)
  have er : dot_S10000x256_S256x128_S10000x128_1_0_0_1_n_n.rhsIdx (ix2 r k) ((ValueIdx.contrEquiv1 dot_S10000x256_S256x128_S10000x128_1_0_0_1_n_n 256 rfl rfl).symm q) = ix2 q k := funext fun a => Fin.ext (by
    match a with
    | ⟨0, _⟩ => exact (rhs_hid_0 _ _).trans hq
    | ⟨1, _⟩ => exact rhs_hid_1 _ _)
  rw [el, er]

/-- The second product into the zero accumulator, at row `r`: the sum over the 128 hidden units. -/
theorem out_matmul_apply (a : FVec Ideal S10000x128 .bf16) (w : FVec Ideal S128x1 .bf16) (r : Fin 10000) (j : Fin 1) :
    matmul (F := Ideal) dot_S10000x128_S128x1_S10000x1_1_0_0_1_n_n none a w (constant (F := Ideal) S10000x1 .f32 0x00000000#32) (ix2 r j)
      = ∑ k : Fin 128, a (ix2 r k) * w (ix2 k j) := by
  simp only [matmul]
  rw [Ideal.matmul_constant_zero_apply, ← Equiv.sum_comp (ValueIdx.contrEquiv1 dot_S10000x128_S128x1_S10000x1_1_0_0_1_n_n 128 rfl rfl).symm]
  refine Finset.sum_congr rfl fun k _ => ?_
  have hk := ValueIdx.contrEquiv1_symm_val dot_S10000x128_S128x1_S10000x1_1_0_0_1_n_n 128 rfl rfl k
  have el : dot_S10000x128_S128x1_S10000x1_1_0_0_1_n_n.lhsIdx (ix2 r j) ((ValueIdx.contrEquiv1 dot_S10000x128_S128x1_S10000x1_1_0_0_1_n_n 128 rfl rfl).symm k) = ix2 r k := funext fun a => Fin.ext (by
    match a with
    | ⟨0, _⟩ => exact lhs_out_0 _ _
    | ⟨1, _⟩ => exact (lhs_out_1 _ _).trans hk)
  have er : dot_S10000x128_S128x1_S10000x1_1_0_0_1_n_n.rhsIdx (ix2 r j) ((ValueIdx.contrEquiv1 dot_S10000x128_S128x1_S10000x1_1_0_0_1_n_n 128 rfl rfl).symm k) = ix2 k j := funext fun a => Fin.ext (by
    match a with
    | ⟨0, _⟩ => exact (rhs_out_0 _ _).trans hk
    | ⟨1, _⟩ => exact rhs_out_1 _ _)
  rw [el, er]

/-! ## The layout operations read at an index -/

/-- The two blocks side by side along the features, at row `r` and feature `q` of the 256. -/
theorem cat_apply (x0 x1 : Vec Ideal S10000x128 .f32) (hc : Shape.Concatenates [S10000x128, S10000x128] S10000x256 1)
    (r : Fin 10000) (q : Fin 256) :
    concatenate S10000x256 1 [⟨S10000x128, x0⟩, ⟨S10000x128, x1⟩] hc (ix2 r q)
      = Spec.cat (fun p => x0 (ix2 r p)) (fun p => x1 (ix2 r p)) q := by
  unfold Spec.cat
  by_cases h : q.val < 128
  · rw [dif_pos h]
    exact concatenate_pair_apply_left 1 x0 x1 hc (ix2 r q) rfl (ix2 r ⟨q.val, h⟩) (fun b => by
      match b with
      | ⟨0, _⟩ => rfl
      | ⟨1, _⟩ => rfl)
  · rw [dif_neg h]
    exact concatenate_pair_apply_right 1 x0 x1 hc (ix2 r q) rfl rfl (ix2 r ⟨q.val - 128, by have := q.isLt; omega⟩) (fun b hb => by
      match b with
      | ⟨0, _⟩ => rfl
      | ⟨1, _⟩ => exact absurd rfl hb) (by show (q.val - 128) + 128 = q.val; omega)

/-- The one-row bias spread down the rows, at row `r` and column `k`. -/
theorem bias_row_apply (b : Vec Ideal S1x128 .f32) (hb : S1x128.Broadcasts S10000x128) (r : Fin 10000) (k : Fin 128) :
    broadcastTo S10000x128 b hb (ix2 r k) = b (ix2 0 k) :=
  broadcastTo_apply b hb (ix2 r k) (ix2 0 k) (fun a => by
    match a with
    | ⟨0, _⟩ => rfl
    | ⟨1, _⟩ => rfl)

/-- The one-entry bias spread down the one column, at row `r`. -/
theorem bias_one_apply (b : Vec Ideal S1x1 .f32) (hb : S1x1.Broadcasts S10000x1) (r : Fin 10000) (j : Fin 1) :
    broadcastTo S10000x1 b hb (ix2 r j) = b (ix2 0 0) :=
  broadcastTo_apply b hb (ix2 r j) (ix2 0 0) (fun a => by
    match a with
    | ⟨0, _⟩ => rfl
    | ⟨1, _⟩ => rfl)

/-! ## The body's arithmetic at an index -/

/-- The hidden layer of the body at row `r`, unit `k`, over the loaded blocks. -/
theorem hid_apply (x0 x1 : Vec Ideal S10000x128 .f32) (x2 : Vec Ideal S256x128 .f32) (x3 : Vec Ideal S1x128 .f32)
    (hc : Shape.Concatenates [S10000x128, S10000x128] S10000x256 1) (hb : S1x128.Broadcasts S10000x128)
    (ht : FTy.bits .bf16 < FTy.bits .f32) (r : Fin 10000) (k : Fin 128) :
    maximumf (F := Ideal)
        (addf (matmul (F := Ideal) dot_S10000x256_S256x128_S10000x128_1_0_0_1_n_n none
            (truncf .bf16 (concatenate S10000x256 1 [⟨S10000x128, x0⟩, ⟨S10000x128, x1⟩] hc) ht)
            (truncf .bf16 x2 ht) (constant (F := Ideal) S10000x128 .f32 0x00000000#32))
          (broadcastTo S10000x128 x3 hb))
        (broadcast S10000x128 (FloatOps.ofBits (F := Ideal) .f32 0x00000000#32)) (ix2 r k)
      = Spec.hid (fun p => x0 (ix2 r p)) (fun p => x1 (ix2 r p)) (fun q k => x2 (ix2 q k)) (fun k => x3 (ix2 0 k)) k := by
  rw [maximumf_apply, addf_apply, hid_matmul_apply, bias_row_apply, broadcast_apply]
  unfold Spec.hid
  show max _ (Ideal.ofBits .f32 0x00000000#32) = _
  rw [Ideal.ofBits_zero_f32]
  refine congrArg (fun s => max (s + x3 (ix2 0 k)) 0) (Finset.sum_congr rfl fun q _ => ?_)
  rw [truncf_apply, truncf_apply, cat_apply]

/-- The body's payload at row `r` of the block: the decoder's score over the loaded blocks. -/
theorem pay_apply (x0 x1 : Vec Ideal S10000x128 .f32) (x2 : Vec Ideal S256x128 .f32) (x3 : Vec Ideal S1x128 .f32)
    (x4 : Vec Ideal S128x1 .f32) (x5 : Vec Ideal S1x1 .f32) (r : Fin 10000) (j : Fin 1) :
    k2_pay1 (F := Ideal) x0 x1 x2 x3 x4 x5 (ix2 r j) =
      Spec.dec (fun q => x0 (ix2 r q)) (fun q => x1 (ix2 r q)) (fun q k => x2 (ix2 q k)) (fun k => x3 (ix2 0 k))
        (fun k => x4 (ix2 k 0)) (x5 (ix2 0 0)) := by
  have hj : j = 0 := Fin.fin_one_eq_zero j
  subst hj
  unfold k2_pay1
  rw [shapeCast_self x0, shapeCast_self x1, shapeCast_self x3, shapeCast_self x5, addf_apply, out_matmul_apply, bias_one_apply]
  unfold Spec.dec
  refine congrArg (fun s => s + x5 (ix2 0 0)) (Finset.sum_congr rfl fun k _ => ?_)
  rw [truncf_apply, truncf_apply, hid_apply]

variable (V : (c : Dev nD) → (b : Ref sig .tc) → Buf (Elt Ideal) ((c : Thread nD τ).loc b))

/-! ## From the blocks to the array -/

/-- The body's loads and its store start at row 0, column 0 of their blocks. -/
theorem zero_offsets : (![0, 0] : Fin 2 → Nat) = fun _ => 0 := funext fun a => by fin_cases a <;> rfl

/-- The grid has 50 points. -/
theorem points_50 : grid2.N = 50 := by decide

/-- The scores of all label edges as one function of the region's six input arrays, index by index. -/
abbrev scores (c : Dev nD) : S500000x1.Idx → EReal := fun i =>
  Spec.dec (fun q => V c main_v50 (ix2 (n0 := 500000) (i 0) q)) (fun q => V c main_v57 (ix2 (n0 := 500000) (i 0) q))
    (fun q k => V c main_arg9 (ix2 q k)) (fun k => V c main_v58 (ix2 0 k)) (fun k => V c main_arg11 (ix2 k 0))
    (V c main_v59 (ix2 0 0))

/-- The printed index maps over the grid: the two embedding windows move with the output's row tile, the four
    parameter windows stay at block zero, and the output's row tile at point `t` is tile `t`. -/
theorem index_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The payload at an index of the block, over blocks that agree with six arrays where the index's row says. -/
theorem pay_of_blocks (x0 x1 : Vec Ideal S10000x128 .f32) (x2 : Vec Ideal S256x128 .f32) (x3 : Vec Ideal S1x128 .f32)
    (x4 : Vec Ideal S128x1 .f32) (x5 : Vec Ideal S1x1 .f32)
    (A0 A1 : S500000x128.Idx → EReal) (A2 : S256x128.Idx → EReal) (A3 : S1x128.Idx → EReal) (A4 : S128x1.Idx → EReal)
    (A5 : S1x1.Idx → EReal) (y : S10000x1.Idx) (n : Fin 500000)
    (h0 : ∀ q : Fin 128, x0 (ix2 (y 0) q) = A0 (ix2 n q)) (h1 : ∀ q : Fin 128, x1 (ix2 (y 0) q) = A1 (ix2 n q))
    (h2 : ∀ (q : Fin 256) (k : Fin 128), x2 (ix2 q k) = A2 (ix2 q k)) (h3 : ∀ k : Fin 128, x3 (ix2 0 k) = A3 (ix2 0 k))
    (h4 : ∀ k : Fin 128, x4 (ix2 k 0) = A4 (ix2 k 0)) (h5 : x5 (ix2 0 0) = A5 (ix2 0 0)) :
    k2_pay1 (F := Ideal) x0 x1 x2 x3 x4 x5 y =
      Spec.dec (fun q => A0 (ix2 n q)) (fun q => A1 (ix2 n q)) (fun q k => A2 (ix2 q k)) (fun k => A3 (ix2 0 k))
        (fun k => A4 (ix2 k 0)) (A5 (ix2 0 0)) := by
  obtain ⟨r, j, rfl⟩ : ∃ (r : Fin 10000) (j : Fin 1), y = ix2 r j := ⟨y 0, y 1, eq_ix2 y⟩
  rw [pay_apply]
  have e0 : (fun q => x0 (ix2 r q)) = fun q => A0 (ix2 n q) := funext h0
  have e1 : (fun q => x1 (ix2 r q)) = fun q => A1 (ix2 n q) := funext h1
  have e2 : (fun q k => x2 (ix2 q k)) = fun q k => A2 (ix2 q k) := funext fun q => funext fun k => h2 q k
  have e3 : (fun k => x3 (ix2 0 k)) = fun k => A3 (ix2 0 k) := funext h3
  have e4 : (fun k => x4 (ix2 k 0)) = fun k => A4 (ix2 k 0) := funext h4
  rw [e0, e1, e2, e3, e4, h5]

/-- WHAT POINT `t` WRITES BACK is block `t` of `scores`. -/
theorem flushed_eq (c : Dev nD) (t : Fin cfg2.N) :
    (dat2 (F := Ideal) V c).flushed 6 t = ((cfg2.win 6).blk t).view.read (Elt Ideal) (scores V c) := by
  show (cfg2.win 6).cut (grid2.coords t) ((dat2 V c).after 6 t) = _
  rw [after2_6]
  unfold out2_6
  rw [View.canon_unit_zero zero_offsets]
  simp only [View.ld_unit_zero (S := S10000x128) zero_offsets, View.ld_unit_zero (S := S256x128) zero_offsets,
    View.ld_unit_zero (S := S1x128) zero_offsets, View.ld_unit_zero (S := S128x1) zero_offsets,
    View.ld_unit_zero (S := S1x1) zero_offsets]
  obtain ⟨e00, e01, e10, e11, e20, e21, e30, e31, e40, e41, e50, e51, e60, e61⟩ := index_facts t
  funext y
  show k2_pay1 (F := Ideal) (iblk2 V c 0 t) (iblk2 V c 1 t) (iblk2 V c 2 t) (iblk2 V c 3 t) (iblk2 V c 4 t) (iblk2 V c 5 t)
      (fun a => ⟨(y a).val, (y a).isLt⟩ : S10000x1.Idx) = scores V c (((cfg2.win 6).blk t).view.emb y)
  refine pay_of_blocks (iblk2 V c 0 t) (iblk2 V c 1 t) (iblk2 V c 2 t) (iblk2 V c 3 t) (iblk2 V c 4 t) (iblk2 V c 5 t)
    (V c main_v50) (V c main_v57) (V c main_arg9) (V c main_v58) (V c main_arg11) (V c main_v59) _
    ((((cfg2.win 6).blk t).view.emb y) 0) ?_ ?_ ?_ ?_ ?_ ?_
  · intro q
    show V c main_v50 (((cfg2.win 0).blk t).view.emb (ix2 (y 0) q)) = V c main_v50 _
    refine congrArg (V c main_v50) (funext fun a => Fin.ext ?_)
    match a with
    | ⟨0, _⟩ => show win2_0.index t (0 : Fin 2) * 10000 + 1 * (y 0).val = win2_6.index t (0 : Fin 2) * 10000 + 1 * (y 0).val; rw [e00]
    | ⟨1, _⟩ => show win2_0.index t (1 : Fin 2) * 128 + 1 * q.val = q.val; rw [e01]; omega
  · intro q
    show V c main_v57 (((cfg2.win 1).blk t).view.emb (ix2 (y 0) q)) = V c main_v57 _
    refine congrArg (V c main_v57) (funext fun a => Fin.ext ?_)
    match a with
    | ⟨0, _⟩ => show win2_1.index t (0 : Fin 2) * 10000 + 1 * (y 0).val = win2_6.index t (0 : Fin 2) * 10000 + 1 * (y 0).val; rw [e10]
    | ⟨1, _⟩ => show win2_1.index t (1 : Fin 2) * 128 + 1 * q.val = q.val; rw [e11]; omega
  · intro q k
    show V c main_arg9 (((cfg2.win 2).blk t).view.emb (ix2 q k)) = V c main_arg9 _
    refine congrArg (V c main_arg9) (funext fun a => Fin.ext ?_)
    match a with
    | ⟨0, _⟩ => show win2_2.index t (0 : Fin 2) * 256 + 1 * q.val = q.val; rw [e20]; omega
    | ⟨1, _⟩ => show win2_2.index t (1 : Fin 2) * 128 + 1 * k.val = k.val; rw [e21]; omega
  · intro k
    show V c main_v58 (((cfg2.win 3).blk t).view.emb (ix2 0 k)) = V c main_v58 _
    refine congrArg (V c main_v58) (funext fun a => Fin.ext ?_)
    match a with
    | ⟨0, _⟩ => show win2_3.index t (0 : Fin 2) * 1 + 1 * 0 = 0; rw [e30]
    | ⟨1, _⟩ => show win2_3.index t (1 : Fin 2) * 128 + 1 * k.val = k.val; rw [e31]; omega
  · intro k
    show V c main_arg11 (((cfg2.win 4).blk t).view.emb (ix2 k 0)) = V c main_arg11 _
    refine congrArg (V c main_arg11) (funext fun a => Fin.ext ?_)
    match a with
    | ⟨0, _⟩ => show win2_4.index t (0 : Fin 2) * 128 + 1 * k.val = k.val; rw [e40]; omega
    | ⟨1, _⟩ => show win2_4.index t (1 : Fin 2) * 1 + 1 * 0 = 0; rw [e41]
  · show V c main_v59 (((cfg2.win 5).blk t).view.emb (ix2 0 0)) = V c main_v59 _
    refine congrArg (V c main_v59) (funext fun a => Fin.ext ?_)
    match a with
    | ⟨0, _⟩ => show win2_5.index t (0 : Fin 2) * 1 + 1 * 0 = 0; rw [e50]
    | ⟨1, _⟩ => show win2_5.index t (1 : Fin 2) * 1 + 1 * 0 = 0; rw [e51]

/-- An index of the array is in point `t`'s block iff each coordinate is in the block's range on its axis. -/
theorem mem_blk (t : Fin cfg2.N) (i : S500000x1.Idx) :
    i ∈ ((cfg2.win 6).blk t).view.set ↔ ∀ a : Fin 2, win2_6.index t a * S10000x1.size a ≤ (i a).val ∧ (i a).val < win2_6.index t a * S10000x1.size a + S10000x1.size a := by
  show i ∈ ((View.whole main_v60).slice (win2_6.rect t)).set ↔ _
  rw [View.set_slice_whole, Rect.mem_set_unit]
  exact Iff.rfl

/-- Every row of the array lies in the block of the point numbered by its row tile. -/
theorem covered (i : S500000x1.Idx) :
    ∃ t : Fin cfg2.N, (cfg2.win 6).flush t = true ∧ i ∈ ((cfg2.win 6).blk t).view.set := by
  have hi0 : (i 0).val < 500000 := (i 0).isLt
  have hi1 : (i 1).val < 1 := (i 1).isLt
  have hlt : (i 0).val / 10000 < cfg2.N := by show _ < grid2.N; rw [points_50]; omega
  obtain ⟨t, ht⟩ : ∃ t : Fin cfg2.N, t.val = (i 0).val / 10000 := ⟨⟨_, hlt⟩, rfl⟩
  obtain ⟨-, -, -, -, -, -, -, -, -, -, -, -, e60, e61⟩ := index_facts t
  refine ⟨t, flush2_6 t, ?_⟩
  rw [mem_blk]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 1 ≤ (i 1).val ∧ (i 1).val < win2_6.index t (1 : Fin 2) * 1 + 1; omega

theorem arr2 (c : Dev nD) :
    (dat2 (F := Ideal) V c).arrAt 6 cfg2.N = fun i : S500000x1.Idx =>
      Spec.dec (fun q => V c main_v50 (ix2 (n0 := 500000) (i 0) q)) (fun q => V c main_v57 (ix2 (n0 := 500000) (i 0) q))
        (fun q k => V c main_arg9 (ix2 q k)) (fun k => V c main_v58 (ix2 0 k)) (fun k => V c main_arg11 (ix2 k 0))
        (V c main_v59 (ix2 0 0)) := by
  exact (dat2 (F := Ideal) V c).arrAt_eq_of_cover 6 (scores V c) (fun t _ => flushed_eq V c t) covered

end Cert.KernelIdeal.Val

end
-- ==== Proof.RefVal.lean ====
/-
  The reference's two SAGE layers read at one element.  Its dense stages act on whole arrays: the product of the
  neighbour sums with the broadcast inverse degree, a dot_general with the left weights, the broadcast bias, a second
  dot_general of the layer's input with the right weights, and (first layer only) the maximum with zero.  Each
  dot_general at (r, j) is the sum over the contracted axis k of left (r, k) times right (k, j), and each broadcast
  reads its operand at the coordinate it keeps; so at (r, j) the stage is the specification's formula.  The neighbour
  sums and the inverse degree stay as they are: both programs hold the same ones.
-/
import proofs.«156912_j75256416960673_1_alg».proof.Proof.RefRead
import proofs.«156912_j75256416960673_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Cert.ReferenceIdeal Cert.ReferenceIdeal.ReadP Idealize.ShloMosaic Idealize.ShloMosaic.TcCoe Idealize.SL.Sem
open Idealize.ShloMosaic.ValueIdx

variable (x0 : (⟨S100000x64, .f32⟩ : BufTy).Contents (Elt Ideal)) (x1 : (⟨S2x1600000, .i32⟩ : BufTy).Contents (Elt Ideal))
  (x2 : (⟨S2x500000, .i32⟩ : BufTy).Contents (Elt Ideal)) (x3 : (⟨S64x128, .f32⟩ : BufTy).Contents (Elt Ideal))
  (x4 : (⟨S128, .f32⟩ : BufTy).Contents (Elt Ideal)) (x5 : (⟨S64x128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S256x128, .f32⟩ : BufTy).Contents (Elt Ideal))
  (x10 : (⟨S128, .f32⟩ : BufTy).Contents (Elt Ideal)) (x11 : (⟨S128x1, .f32⟩ : BufTy).Contents (Elt Ideal))
  (x12 : (⟨S1, .f32⟩ : BufTy).Contents (Elt Ideal))

/-! Coordinates of the composed read indices at an index given by its two coordinates. -/

theorem lidx28_ix (r : Fin 100000) (j : Fin 128) (k : Fin 64) : lidx_main_v28 (ix2 r j) k = ix2 r k :=
  funext fun a => Fin.ext (by match a with | ⟨0, _⟩ => rfl | ⟨1, _⟩ => rfl)

theorem ridx28_ix (r : Fin 100000) (j : Fin 128) (k : Fin 64) : ridx_main_v28 (ix2 r j) k = ix2 k j :=
  funext fun a => Fin.ext (by match a with | ⟨0, _⟩ => rfl | ⟨1, _⟩ => rfl)

theorem lidx32_ix (r : Fin 100000) (j : Fin 128) (k : Fin 64) : lidx_main_v32 (ix2 r j) k = ix2 r k :=
  funext fun a => Fin.ext (by match a with | ⟨0, _⟩ => rfl | ⟨1, _⟩ => rfl)

theorem ridx32_ix (r : Fin 100000) (j : Fin 128) (k : Fin 64) : ridx_main_v32 (ix2 r j) k = ix2 k j :=
  funext fun a => Fin.ext (by match a with | ⟨0, _⟩ => rfl | ⟨1, _⟩ => rfl)

theorem idx25_ix (r : Fin 100000) (k : Fin 64) : idx_main_v25 (idx_main_v26 (ix2 r k)) = ix1 r :=
  funext fun a => Fin.ext (by match a with | ⟨0, _⟩ => rfl)

theorem idx29_ix (r : Fin 100000) (j : Fin 128) : idx_main_v29 (idx_main_v30 (ix2 r j)) = ix1 j :=
  funext fun a => Fin.ext (by match a with | ⟨0, _⟩ => rfl)

/-! One summand of each contraction of the first layer, at coordinates. -/

theorem term28 (r : Fin 100000) (j : Fin 128) (k : Fin 64) :
    val_main_v27 (F := Ideal) x0 x1 (lidx_main_v28 (ix2 r j) k) * x3 (ridx_main_v28 (ix2 r j) k) =
      (val_main_v24 (F := Ideal) x0 x1 (ix2 r k) * val_main_v14 (F := Ideal) x1 (ix1 r)) * x3 (ix2 k j) := by
  rw [lidx28_ix, ridx28_ix, val_main_v27_apply, val_main_v26_apply, val_main_v25_apply, idx25_ix, Ideal.mulf_def]

theorem term32 (r : Fin 100000) (j : Fin 128) (k : Fin 64) :
    x0 (lidx_main_v32 (ix2 r j) k) * x5 (ridx_main_v32 (ix2 r j) k) = x0 (ix2 r k) * x5 (ix2 k j) := by
  rw [lidx32_ix, ridx32_ix]

/-! The same for the second layer, whose contractions run over 128 features. -/

theorem lidx48_ix (r : Fin 100000) (j : Fin 128) (k : Fin 128) : lidx_main_v48 (ix2 r j) k = ix2 r k :=
  funext fun a => Fin.ext (by match a with | ⟨0, _⟩ => rfl | ⟨1, _⟩ => rfl)

theorem ridx48_ix (r : Fin 100000) (j : Fin 128) (k : Fin 128) : ridx_main_v48 (ix2 r j) k = ix2 k j :=
  funext fun a => Fin.ext (by match a with | ⟨0, _⟩ => rfl | ⟨1, _⟩ => rfl)

theorem lidx52_ix (r : Fin 100000) (j : Fin 128) (k : Fin 128) : lidx_main_v52 (ix2 r j) k = ix2 r k :=
  funext fun a => Fin.ext (by match a with | ⟨0, _⟩ => rfl | ⟨1, _⟩ => rfl)

theorem ridx52_ix (r : Fin 100000) (j : Fin 128) (k : Fin 128) : ridx_main_v52 (ix2 r j) k = ix2 k j :=
  funext fun a => Fin.ext (by match a with | ⟨0, _⟩ => rfl | ⟨1, _⟩ => rfl)

theorem idx45_ix (r : Fin 100000) (k : Fin 128) : idx_main_v45 (idx_main_v46 (ix2 r k)) = ix1 r :=
  funext fun a => Fin.ext (by match a with | ⟨0, _⟩ => rfl)

theorem idx49_ix (r : Fin 100000) (j : Fin 128) : idx_main_v49 (idx_main_v50 (ix2 r j)) = ix1 j :=
  funext fun a => Fin.ext (by match a with | ⟨0, _⟩ => rfl)

theorem term48 (r : Fin 100000) (j : Fin 128) (k : Fin 128) :
    val_main_v47 (F := Ideal) x0 x1 x3 x4 x5 (lidx_main_v48 (ix2 r j) k) * x6 (ridx_main_v48 (ix2 r j) k) =
      (val_main_v44 (F := Ideal) x0 x1 x3 x4 x5 (ix2 r k) * val_main_v14 (F := Ideal) x1 (ix1 r)) * x6 (ix2 k j) := by
  rw [lidx48_ix, ridx48_ix, val_main_v47_apply, val_main_v46_apply, val_main_v45_apply, idx45_ix, Ideal.mulf_def]

theorem term52 (r : Fin 100000) (j : Fin 128) (k : Fin 128) :
    val_main_v34 (F := Ideal) x0 x1 x3 x4 x5 (lidx_main_v52 (ix2 r j) k) * x8 (ridx_main_v52 (ix2 r j) k) =
      val_main_v34 (F := Ideal) x0 x1 x3 x4 x5 (ix2 r k) * x8 (ix2 k j) := by
  rw [lidx52_ix, ridx52_ix]

theorem layer1 (i : S100000x128.Idx) :
    val_main_v34 (F := Ideal) x0 x1 x3 x4 x5 i =
      max (Spec.sage64 (fun r k => val_main_v24 (F := Ideal) x0 x1 (ix2 r k)) (fun r k => x0 (ix2 r k)) (fun r => val_main_v14 (F := Ideal) x1 (ix1 r))
        (fun k j => x3 (ix2 k j)) (fun j => x4 (ix1 j)) (fun k j => x5 (ix2 k j)) (i 0) (i 1)) 0 := by
  obtain ⟨r, j, rfl⟩ : ∃ (r : Fin 100000) (j : Fin 128), i = ix2 r j := ⟨i 0, i 1, eq_ix2 i⟩
  show _ = max (Spec.sage64 _ _ _ _ _ _ r j) 0
  rw [val_main_v34_apply, val_main_v33_apply, val_main_v31_apply, val_main_v28_apply, val_main_v32_apply,
    val_main_v30_apply, val_main_v29_apply, val_main_call1_v0_apply, val_main_call1_cst_apply]
  rw [Ideal.maximumf_def, Ideal.addf_def, Ideal.addf_def, Ideal.ofBits_def, Ideal.ofBits_zero_f32, idx29_ix]
  rw [Finset.sum_congr rfl fun k _ => term28 x0 x1 x3 r j k, Finset.sum_congr rfl fun k _ => term32 x0 x5 r j k]
  unfold Spec.sage64
  beta_reduce
  with_reducible rfl

theorem layer2 (i : S100000x128.Idx) :
    val_main_v53 (F := Ideal) x0 x1 x3 x4 x5 x6 x7 x8 i =
      Spec.sage128 (fun r k => val_main_v44 (F := Ideal) x0 x1 x3 x4 x5 (ix2 r k)) (fun r k => val_main_v34 (F := Ideal) x0 x1 x3 x4 x5 (ix2 r k))
        (fun r => val_main_v14 (F := Ideal) x1 (ix1 r))
        (fun k j => x6 (ix2 k j)) (fun j => x7 (ix1 j)) (fun k j => x8 (ix2 k j)) (i 0) (i 1) := by
  obtain ⟨r, j, rfl⟩ : ∃ (r : Fin 100000) (j : Fin 128), i = ix2 r j := ⟨i 0, i 1, eq_ix2 i⟩
  show _ = Spec.sage128 _ _ _ _ _ _ r j
  rw [val_main_v53_apply, val_main_v51_apply, val_main_v48_apply, val_main_v52_apply, val_main_v50_apply,
    val_main_v49_apply]
  rw [Ideal.addf_def, Ideal.addf_def, idx49_ix]
  rw [Finset.sum_congr rfl fun k _ => term48 x0 x1 x3 x4 x5 x6 r j k,
    Finset.sum_congr rfl fun k _ => term52 x0 x1 x3 x4 x5 x8 r j k]
  unfold Spec.sage128
  beta_reduce
  with_reducible rfl

end Cert.ReferenceIdeal.RefVal

end
-- ==== Proof.RefDec.lean ====
/-
  The reference's decoder read at one label edge e: the concatenation of the two gathered endpoint rows reads its first
  piece for features q < 128 and its second at q − 128 after; the dot_general with w1 is the sum over q, the broadcast
  bias reads b1 at k, the maximum with zero clamps, the dot_general with the one-column w2 is the sum over k, the
  broadcast b2 its single entry, and the final reshape reads the score column at (e, 0).
-/
import proofs.«156912_j75256416960673_1_alg».proof.Proof.RefRead
import proofs.«156912_j75256416960673_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefDec

open Cert.ReferenceIdeal Cert.ReferenceIdeal.ReadP Idealize.ShloMosaic Idealize.ShloMosaic.TcCoe Idealize.SL.Sem
open Idealize.ShloMosaic.ValueIdx

/-- Two 128-feature arrays joined along the feature axis, read at edge `e`, feature `q`: the first array's
    feature `q` below 128, the second's feature `q - 128` from 128 on. -/
theorem concat_apply (z0 z1 : (⟨S500000x128, .f32⟩ : BufTy).Contents (Elt Ideal)) (e : Fin 500000) (q : Fin 256) :
    concatenate S500000x256 1 [⟨S500000x128, z0⟩, ⟨S500000x128, z1⟩]
        Cert.ReferenceIdeal.Gen.concatenates_S500000x128_S500000x128_S500000x256_d1 (ix2 e q) =
      Spec.cat (fun q' => z0 (ix2 e q')) (fun q' => z1 (ix2 e q')) q := by
  unfold Cert.Spec.cat
  split
  · rename_i h
    exact concatenate_pair_apply_left (1 : Fin S500000x256.rank) z0 z1 _ (ix2 e q) rfl (ix2 e ⟨q.val, h⟩)
      (fun b => by match b with | ⟨0, _⟩ => rfl | ⟨1, _⟩ => rfl)
  · rename_i h
    exact concatenate_pair_apply_right (1 : Fin S500000x256.rank) z0 z1 _ (ix2 e q) rfl rfl
      (ix2 e ⟨q.val - 128, by have := q.isLt; omega⟩)
      (fun b hb => by match b with | ⟨0, _⟩ => rfl | ⟨1, _⟩ => exact absurd rfl hb)
      (by show (q.val - 128) + 128 = q.val; omega)

variable (x0 : (⟨S100000x64, .f32⟩ : BufTy).Contents (Elt Ideal)) (x1 : (⟨S2x1600000, .i32⟩ : BufTy).Contents (Elt Ideal))
  (x2 : (⟨S2x500000, .i32⟩ : BufTy).Contents (Elt Ideal)) (x3 : (⟨S64x128, .f32⟩ : BufTy).Contents (Elt Ideal))
  (x4 : (⟨S128, .f32⟩ : BufTy).Contents (Elt Ideal)) (x5 : (⟨S64x128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S256x128, .f32⟩ : BufTy).Contents (Elt Ideal))
  (x10 : (⟨S128, .f32⟩ : BufTy).Contents (Elt Ideal)) (x11 : (⟨S128x1, .f32⟩ : BufTy).Contents (Elt Ideal))
  (x12 : (⟨S1, .f32⟩ : BufTy).Contents (Elt Ideal))

/-- The joined endpoint embeddings at edge `e`, feature `q`. -/
theorem joined_apply (e : Fin 500000) (q : Fin 256) :
    val_main_v72 (F := Ideal) x0 x1 x2 x3 x4 x5 x6 x7 x8 (ix2 e q) =
      Spec.cat (fun q' => val_main_v62 (F := Ideal) x0 x1 x2 x3 x4 x5 x6 x7 x8 (ix2 (n0 := 500000) e q'))
        (fun q' => val_main_v71 (F := Ideal) x0 x1 x2 x3 x4 x5 x6 x7 x8 (ix2 (n0 := 500000) e q')) q := by
  unfold val_main_v72
  exact concat_apply _ _ e q

/-- The decoder's hidden layer at edge `e`, unit `k`: the joined embeddings through the first weight matrix, plus the
    bias, clamped below at zero. -/
theorem hidden_apply (e : Fin 500000) (k : Fin 128) :
    val_main_v77 (F := Ideal) x0 x1 x2 x3 x4 x5 x6 x7 x8 x9 x10 (ix2 e k) =
      Spec.hid (fun q => val_main_v62 (F := Ideal) x0 x1 x2 x3 x4 x5 x6 x7 x8 (ix2 (n0 := 500000) e q))
        (fun q => val_main_v71 (F := Ideal) x0 x1 x2 x3 x4 x5 x6 x7 x8 (ix2 (n0 := 500000) e q))
        (fun q k => x9 (ix2 q k)) (fun k => x10 (ix1 k)) k := by
  have el : ∀ q : Fin 256, lidx_main_v73 (ix2 (n0 := 500000) (n1 := 128) e k) q = ix2 e q := fun q =>
    funext fun a => Fin.ext (by match a with | ⟨0, _⟩ => rfl | ⟨1, _⟩ => rfl)
  have er : ∀ q : Fin 256, ridx_main_v73 (ix2 (n0 := 500000) (n1 := 128) e k) q = ix2 q k := fun q =>
    funext fun a => Fin.ext (by match a with | ⟨0, _⟩ => rfl | ⟨1, _⟩ => rfl)
  have eb : idx_main_v74 (idx_main_v75 (ix2 (n0 := 500000) (n1 := 128) e k)) = ix1 k :=
    funext fun a => Fin.ext (by match a with | ⟨0, _⟩ => rfl)
  rw [val_main_v77_apply, val_main_v76_apply, val_main_v73_apply, val_main_v75_apply, val_main_v74_apply,
    val_main_call2_v0_apply, val_main_call2_cst_apply, eb]
  simp only [el, er, joined_apply]
  unfold Cert.Spec.hid
  rw [Ideal.maximumf_def, Ideal.addf_def, Ideal.ofBits_def, Ideal.ofBits_zero_f32]

theorem decoder (i : S500000.Idx) :
    val_main_v82 (F := Ideal) x0 x1 x2 x3 x4 x5 x6 x7 x8 x9 x10 x11 x12 i =
      Spec.dec (fun q => val_main_v62 (F := Ideal) x0 x1 x2 x3 x4 x5 x6 x7 x8 (ix2 (n0 := 500000) (i 0) q))
        (fun q => val_main_v71 (F := Ideal) x0 x1 x2 x3 x4 x5 x6 x7 x8 (ix2 (n0 := 500000) (i 0) q))
        (fun q k => x9 (ix2 q k)) (fun k => x10 (ix1 k)) (fun k => x11 (ix2 k 0)) (x12 (ix1 0)) := by
  obtain ⟨e, rfl⟩ : ∃ e : Fin 500000, i = ix1 e := ⟨i 0, eq_ix1 i⟩
  have el : ∀ k : Fin 128, lidx_main_v78 (idx_main_v82 (ix1 e)) k = ix2 e k := fun k =>
    funext fun a => Fin.ext (by match a with | ⟨0, _⟩ => exact Nat.div_one _ | ⟨1, _⟩ => rfl)
  have er : ∀ k : Fin 128, ridx_main_v78 (idx_main_v82 (ix1 e)) k = ix2 k 0 := fun k =>
    funext fun a => Fin.ext (by match a with | ⟨0, _⟩ => rfl | ⟨1, _⟩ => rfl)
  have eb : idx_main_v79 (idx_main_v80 (idx_main_v82 (ix1 e))) = ix1 0 :=
    funext fun a => Fin.ext (by match a with | ⟨0, _⟩ => rfl)
  rw [val_main_v82_apply, val_main_v81_apply, val_main_v78_apply, val_main_v80_apply, val_main_v79_apply, eb]
  simp only [el, er, hidden_apply]
  unfold Cert.Spec.dec
  rw [Ideal.addf_def]

end Cert.ReferenceIdeal.RefDec

end
-- ==== Proof.Join.lean ====
/-
  The kernel's three tiled regions against the reference's three dense stages.

  After each region the output array is, element by element, the specification's function of what the region found
  (the region modules); the reference's stage at the same element is the same function of ITS operands (the reference
  modules); and what a region finds is what the reference's stage reads — the same gathers and neighbour sums of the
  previous layer's output, the same inverse degree, the same weights (the chain module).  So layer by layer the two
  programs hold equal arrays: `h` after the first region, `z` after the second, the scores after the third, and the
  reshaped result at the end.  The inverse degree reaches the kernel as a one-column matrix and the biases as one-row
  matrices, which read at (r, 0) and (0, j) what the vectors hold at r and j.
-/
import proofs.«156912_j75256416960673_1_alg».proof.Proof.Chain
import proofs.«156912_j75256416960673_1_alg».proof.Proof.K0
import proofs.«156912_j75256416960673_1_alg».proof.Proof.K1
import proofs.«156912_j75256416960673_1_alg».proof.Proof.K2
import proofs.«156912_j75256416960673_1_alg».proof.Proof.RefVal
import proofs.«156912_j75256416960673_1_alg».proof.Proof.RefDec
import Idealize.ShloMosaic.Lib.ValueLayout

set_option maxRecDepth 16384

noncomputable section

namespace Cert.KernelIdeal.Join

open Cert.KernelIdeal Cert.KernelIdeal.Gen Idealize.ShloMosaic Idealize.ShloMosaic.TcCoe Idealize.SL.Sem
open Idealize.ShloMosaic.ValueIdx
open Cert.ReferenceIdeal.ReadP

/-- A vector seen as a one-column matrix holds at `(i, u)` what the vector holds at `i`. -/
theorem col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (m : (ℓ : Loc nD τ sig) → Buf (Elt Ideal) ℓ) (ρ : Dev nD → PrngReg)

/-- After the first region: the hidden features `h`, the reference's clamped first layer. -/
theorem W4_v27 (c : Dev nD) :
    W4 m ρ c (Proc.devRef .tc main_v27) = val_main_v34 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W4_arr m ρ c 6).trans ?_
  rw [Val.arr0 (V3 m ρ) c]
  funext i
  rw [Cert.ReferenceIdeal.RefVal.layer1]
  have e25 : V3 m ρ c main_v25 = val_main_v24 (F := Ideal) (m ((c : Thread nD τ).loc main_arg0)) (m ((c : Thread nD τ).loc main_arg1)) := Chain.W3_v25 m ρ c
  have e0 : V3 m ρ c main_arg0 = (m ((c : Thread nD τ).loc main_arg0)) := Chain.W3_arg0 m ρ c
  have e15 : V3 m ρ c main_v15 = shapeCast S100000x1 (val_main_v14 (F := Ideal) (m ((c : Thread nD τ).loc main_arg1))) shapeCasts_S100000_S100000x1 := Chain.W3_v15 m ρ c
  have e3 : V3 m ρ c main_arg3 = (m ((c : Thread nD τ).loc main_arg3)) := Chain.W3_arg3 m ρ c
  have e26 : V3 m ρ c main_v26 = shapeCast S1x128 (m ((c : Thread nD τ).loc main_arg4)) shapeCasts_S128_S1x128 := Chain.W3_v26 m ρ c
  have e5 : V3 m ρ c main_arg5 = (m ((c : Thread nD τ).loc main_arg5)) := Chain.W3_arg5 m ρ c
  rw [e25, e0, e15, e3, e26, e5]
  simp only [col_apply, shapeCast_a_1a_apply]

/-- After the second region: the embeddings `z`, the reference's second layer. -/
theorem W6_v39 (c : Dev nD) :
    W6 m ρ c (Proc.devRef .tc main_v39) = val_main_v53 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 6).trans ?_
  rw [Val.arr1 (V5 m ρ) c]
  funext i
  rw [Cert.ReferenceIdeal.RefVal.layer2]
  have e37 : V5 m ρ c main_v37 = val_main_v44 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := Chain.W5_v37 m ρ c (W4_v27 m ρ c)
  have e27 : V5 m ρ c main_v27 = val_main_v34 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := Chain.W5_v27 m ρ c (W4_v27 m ρ c)
  have e15 : V5 m ρ c main_v15 = shapeCast S100000x1 (val_main_v14 (F := Ideal) (m ((c : Thread nD τ).loc main_arg1))) shapeCasts_S100000_S100000x1 := Chain.W5_v15 m ρ c
  have e6 : V5 m ρ c main_arg6 = (m ((c : Thread nD τ).loc main_arg6)) := Chain.W5_arg6 m ρ c
  have e38 : V5 m ρ c main_v38 = shapeCast S1x128 (m ((c : Thread nD τ).loc main_arg7)) shapeCasts_S128_S1x128 := Chain.W5_v38 m ρ c
  have e8 : V5 m ρ c main_arg8 = (m ((c : Thread nD τ).loc main_arg8)) := Chain.W5_arg8 m ρ c
  rw [e37, e27, e15, e6, e38, e8]
  simp only [col_apply, shapeCast_a_1a_apply]

/-- The reference's reshape reads the score column at `(e, 0)`. -/
theorem idx_out (e : Fin 500000) : idx_main_v82 (ix1 e) = ix2 e (0 : Fin 1) := by
  funext a
  match a with
  | ⟨0, _⟩ => exact Fin.ext (Nat.div_one _)
  | ⟨1, _⟩ => rfl

/-- After the third region: the score column, the reference's decoder before its reshape. -/
theorem W8_v60 (c : Dev nD) :
    W8 m ρ c (Proc.devRef .tc main_v60) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W8_arr m ρ c 6).trans ?_
  rw [Val.arr2 (V7 m ρ) c]
  funext i
  obtain ⟨e, u, rfl⟩ : ∃ (e : Fin 500000) (u : Fin 1), i = ix2 e u := ⟨i 0, i 1, eq_ix2 i⟩
  obtain rfl : u = 0 := Subsingleton.elim _ _
  have hR := Cert.ReferenceIdeal.RefDec.decoder (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix1 e)
  rw [val_main_v82_apply, idx_out e] at hR
  rw [hR]
  have e50 : V7 m ρ c main_v50 = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := Chain.W7_v50 m ρ c (W6_v39 m ρ c)
  have e57 : V7 m ρ c main_v57 = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := Chain.W7_v57 m ρ c (W6_v39 m ρ c)
  have e9 : V7 m ρ c main_arg9 = (m ((c : Thread nD τ).loc main_arg9)) := Chain.W7_arg9 m ρ c
  have e58 : V7 m ρ c main_v58 = shapeCast S1x128 (m ((c : Thread nD τ).loc main_arg10)) shapeCasts_S128_S1x128 := Chain.W7_v58 m ρ c
  have e11 : V7 m ρ c main_arg11 = (m ((c : Thread nD τ).loc main_arg11)) := Chain.W7_arg11 m ρ c
  have e59 : V7 m ρ c main_v59 = shapeCast S1x1 (m ((c : Thread nD τ).loc main_arg12)) shapeCasts_S1_S1x1 := Chain.W7_v59 m ρ c
  rw [e50, e57, e9, e58, e11, e59]
  simp only [shapeCast_a_1a_apply]

/-- THE KERNEL'S RESULT is the reference's result term of the same arguments. -/
theorem kernel_value (c : Dev nD) :
    W9 m ρ c (Proc.devRef .tc main_v61) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  Chain.W9_v61 m ρ c (W8_v60 m ρ c)

end Cert.KernelIdeal.Join

end
-- ==== Proof.lean ====
/-
  `Cert.Claim` for a two-layer GraphSAGE encoder with a link decoder, computed by three tiled kernels among host
  gathers and scatter-adds, against the dense jnp reference.

  Both programs build the inverse in-degree, the neighbour sums `agg = segment_sum(x[src], dst)`, and then
    h   = max((agg · inv) @ w1l + b1l + x @ w1r, 0)
    z   = (agg' · inv) @ w2l + b2l + h @ w2r              (agg' the neighbour sums of h)
    out = max([z[e0], z[e1]] @ dw1 + db1, 0) @ dw2 + db2   (per label edge (e0, e1))
  with the same host gathers and scatter-adds around them.  The kernel computes each dense stage in row tiles of 10000
  (its matrix products fed through a narrower float format, which over the extended reals is the identity); the reference
  computes it on whole arrays.  A row of each stage depends only on the same row of its operands (and on the whole
  weight matrices), so tile by tile the kernel's rows ARE the reference's rows: each sum over the contracted axis has
  the same terms, and no law beyond reading both sides at an index is used — in particular no finiteness of the
  inputs.

  The frames of the two kernel programs are the generated ones; the reference's frame is its run with the result
  dropped; the ideal pass rewrote nothing, so `preserves` is `True`.
-/
import proofs.«156912_j75256416960673_1_alg».proof.Defs
import proofs.«156912_j75256416960673_1_alg».proof.Proof.Gen.Kernel
import proofs.«156912_j75256416960673_1_alg».proof.Proof.Gen.Kernel.Skeleton
import proofs.«156912_j75256416960673_1_alg».proof.Proof.Gen.Kernel.Launch
import proofs.«156912_j75256416960673_1_alg».proof.Proof.Gen.Kernel.Points
import proofs.«156912_j75256416960673_1_alg».proof.Proof.Gen.Kernel.Frame
import proofs.«156912_j75256416960673_1_alg».proof.Proof.Gen.KernelIdeal
import proofs.«156912_j75256416960673_1_alg».proof.Proof.Gen.KernelIdeal.Skeleton
import proofs.«156912_j75256416960673_1_alg».proof.Proof.Gen.KernelIdeal.Launch
import proofs.«156912_j75256416960673_1_alg».proof.Proof.Gen.KernelIdeal.Points
import proofs.«156912_j75256416960673_1_alg».proof.Proof.Gen.KernelIdeal.Frame
import proofs.«156912_j75256416960673_1_alg».proof.Proof.Gen.ReferenceIdeal
import proofs.«156912_j75256416960673_1_alg».proof.Proof.Gen.Pre_finite_inputs
import proofs.«156912_j75256416960673_1_alg».proof.Proof.KRun
import proofs.«156912_j75256416960673_1_alg».proof.Proof.RefRun
import proofs.«156912_j75256416960673_1_alg».proof.Proof.RefRead
import proofs.«156912_j75256416960673_1_alg».proof.Proof.Join
import Idealize.ShloMosaic.Adequacy
import Idealize.ShloMosaic.Init

noncomputable section

namespace Cert.Proof

open Idealize.ShloMosaic Idealize.SL.Sem

/-- From memories agreeing on the arguments both idealized programs run, and the kernel's result array — the
    contents its last host stretch leaves — is the reference's result term of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W9 m ρ c (Proc.devRef .tc Cert.KernelIdeal.main_v61),
    Cert.KernelIdeal.Run.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12⟩ := hagree c
  rw [Cert.ReferenceIdeal.ReadP.val_main_v82_eq, h0, h1, h2, h3, h4, h5, h6, h7, h8, h9, h10, h11, h12]
  exact (Cert.KernelIdeal.Join.kernel_value m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
